-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x1 : S_.BroadcastsInDim S4x128x1 (![] : Fin 0 → Fin S4x128x1.rank)
  reducesTo_S4x128x1_S_d0_1_2 : S4x128x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg4 : FVec F S4x128x1 .f32) (main_arg5 : FVec F S4x1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x1 .f32 := Host.absf main_arg4
  let main_cst_6 : FVec F S_ .f32 := constant S_ .f32 0x7F800000#32
  let main_v20 : FVec F S4x128x1 .f32 := broadcastInDim S4x128x1 ![] bcast_S_S4x128x1 main_cst_6
  let main_v21 : IVec S4x128x1 1 := cmpf .olt main_v19 main_v20
  let main_c_7 : IVec S_ 1 := constantI S_ 1 1#1
  let main_v22 : IVec S_ 1 := (fun x v => Host.reduce IntOp.andi x v reducesTo_S4x128x1_S_d0_1_2 h_S_) main_v21 main_c_7
  let main_v23 : IVec S_ 1 := andi main_v18 main_v22
  let main_v24 : FVec F S4x1 .f32 := Host.absf main_arg5
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  main_v28

def fn {F : FTy → Type} [FloatOps F] (main_arg0 : FVec F S131072x128 .f32) (main_arg1 : FVec F S128x4 .f32) (main_arg2 : FVec F S4x256x128 .f32) (main_arg3 : FVec F S4x128 .f32) (main_arg4 : FVec F S4x128x1 .f32) (main_arg5 : FVec F S4x1 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4x256x128 .f32 := Host.absf main_arg2
  let main_cst_2 : FVec F S_ .f32 := constant S_ .f32 0x7F800000#32
  let main_v10 : FVec F S4x256x128 .f32 := broadcastInDim S4x256x128 ![] bcast_S_S4x256x128 main_cst_2
  let main_v11 : IVec S4x256x128 1 := cmpf .olt main_v9 main_v10
  let main_c_3 : IVec S_ 1 := constantI S_ 1 1#1
  let main_v12 : IVec S_ 1 := (fun x v => Host.reduce IntOp.andi x v reducesTo_S4x256x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_v13 main_v16
-- ==== Kernel.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S131072x1 : Shape := ⟨2, ![131072, 1]⟩
abbrev S1024x128 : Shape := ⟨2, ![1024, 128]⟩
abbrev S1024x1 : Shape := ⟨2, ![1024, 1]⟩
abbrev S1024x4 : Shape := ⟨2, ![1024, 4]⟩
abbrev S1024x256 : Shape := ⟨2, ![1024, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S1024 : Shape := ⟨1, ![1024]⟩
abbrev S1024x2 : Shape := ⟨2, ![1024, 2]⟩
abbrev S1024x3 : Shape := ⟨2, ![1024, 3]⟩

abbrev nBuf : Space → Nat
  | .hbm => 7
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S128x4, .f32⟩
  | .hbm, ⟨2, _⟩ => ⟨S4x256x128, .f32⟩
  | .hbm, ⟨3, _⟩ => ⟨S4x128, .f32⟩
  | .hbm, ⟨4, _⟩ => ⟨S4x128x1, .f32⟩
  | .hbm, ⟨5, _⟩ => ⟨S4x1, .f32⟩
  | .hbm, ⟨6, _⟩ => ⟨S131072x1, .f32⟩
  | .local _ .vmem, ⟨0, _⟩ => ⟨S1024x128, .f32⟩
  | .local _ .vmem, ⟨1, _⟩ => ⟨S1024x128, .f32⟩
  | .local _ .vmem, ⟨2, _⟩ => ⟨S128x4, .f32⟩
  | .local _ .vmem, ⟨3, _⟩ => ⟨S4x256x128, .f32⟩
  | .local _ .vmem, ⟨4, _⟩ => ⟨S4x128, .f32⟩
  | .local _ .vmem, ⟨5, _⟩ => ⟨S4x128x1, .f32⟩
  | .local _ .vmem, ⟨6, _⟩ => ⟨S4x1, .f32⟩
  | .local _ .vmem, ⟨7, _⟩ => ⟨S1024x1, .f32⟩
  | .local _ .vmem, ⟨8, _⟩ => ⟨S1024x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x4_S128x4_0_0 : ∀ a, (![0, 0] : Fin 2 → Nat) a + S128x4.size a ≤ S128x4.size a
  h_S128x4 : 0 < S128x4.numel
  concatenates_S1024x128_S1024x128_S1024x256_d1 : Shape.Concatenates [S1024x128, S1024x128] S1024x256 1
  inb_S4x256x128_S1x256x128_0_0_0 : ∀ a, (![0, 0, 0] : Fin 3 → Nat) a + S1x256x128.size a ≤ S4x256x128.size a
  h_S1x256x128 : 0 < S1x256x128.numel
  shapeCasts_S1x256x128_S256x128 : S1x256x128.ShapeCasts S256x128
  bitsLt_bf16_f32 : FTy.bits .bf16 < FTy.bits .f32
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S4x128x1_S1x128x1_0_0_0 : ∀ a, (![0, 0, 0] : Fin 3 → Nat) a + S1x128x1.size a ≤ S4x128x1.size a
  h_S1x128x1 : 0 < S1x128x1.numel
  shapeCasts_S1x128x1_S128x1 : S1x128x1.ShapeCasts S128x1
  inb_S4x1_S1x1_0_0 : ∀ a, (![0, 0] : Fin 2 → Nat) a + S1x1.size a ≤ S4x1.size a
  h_S1x1 : 0 < S1x1.numel
  shapeCasts_S1x1_S1 : S1x1.ShapeCasts S1
  shapeCasts_S1_S1x1 : S1.ShapeCasts S1x1
  broadcasts_S1x1_S1024x1 : S1x1.Broadcasts S1024x1
  inb_S4x256x128_S1x256x128_1_0_0 : ∀ a, (![1, 0, 0] : Fin 3 → Nat) a + S1x256x128.size a ≤ S4x256x128.size a
  inb_S4x128_S1x128_1_0 : ∀ a, (![1, 0] : Fin 2 → Nat) a + S1x128.size a ≤ S4x128.size a
  inb_S4x128x1_S1x128x1_1_0_0 : ∀ a, (![1, 0, 0] : Fin 3 → Nat) a + S1x128x1.size a ≤ S4x128x1.size a
  inb_S4x1_S1x1_1_0 : ∀ a, (![1, 0] : Fin 2 → Nat) a + S1x1.size a ≤ S4x1.size a
  inb_S4x256x128_S1x256x128_2_0_0 : ∀ a, (![2, 0, 0] : Fin 3 → Nat) a + S1x256x128.size a ≤ S4x256x128.size a
  inb_S4x128_S1x128_2_0 : ∀ a, (![2, 0] : Fin 2 → Nat) a + S1x128.size a ≤ S4x128.size a
  inb_S4x128x1_S1x128x1_2_0_0 : ∀ a, (![2, 0, 0] : Fin 3 → Nat) a + S1x128x1.size a ≤ S4x128x1.size a
  inb_S4x1_S1x1_2_0 : ∀ a, (![2, 0] : Fin 2 → Nat) a + S1x1.size a ≤ S4x1.size a
  inb_S4x256x128_S1x256x128_3_0_0 : ∀ a, (![3, 0, 0] : Fin 3 → Nat) a + S1x256x128.size a ≤ S4x256x128.size a
  inb_S4x128_S1x128_3_0 : ∀ a, (![3, 0] : Fin 2 → Nat) a + S1x128.size a ≤ S4x128.size a
  inb_S4x128x1_S1x128x1_3_0_0 : ∀ a, (![3, 0, 0] : Fin 3 → Nat) a + S1x128x1.size a ≤ S4x128x1.size a
  inb_S4x1_S1x1_3_0 : ∀ a, (![3, 0] : Fin 2 → Nat) a + S1x1.size a ≤ S4x1.size a
  slices_S1024x4_o0_2_S1024x1 : S1024x4.Slices ![0, 2] S1024x1
  natLt_1_32 : 1 < 32
  slices_S1024x4_o0_3_S1024x1 : S1024x4.Slices ![0, 3] S1024x1
  reduces_S1024x1_S1024 : S1024x1.Reduces [1] S1024
  shapeCasts_S1024_S1024x1 : S1024.ShapeCasts S1024x1
  slices_S1024x4_o0_1_S1024x1 : S1024x4.Slices ![0, 1] S1024x1
  slices_S1024x4_o0_2_S1024x2 : S1024x4.Slices ![0, 2] S1024x2
  reduces_S1024x2_S1024 : S1024x2.Reduces [1] S1024
  slices_S1024x4_o0_0_S1024x1 : S1024x4.Slices ![0, 0] S1024x1
  slices_S1024x4_o0_1_S1024x3 : S1024x4.Slices ![0, 1] S1024x3
  reduces_S1024x3_S1024 : S1024x3.Reduces [1] S1024
  inb_S1024x1_S1024x1_0_0 : ∀ a, (![0, 0] : Fin 2 → Nat) a + S1024x1.size a ≤ S1024x1.size a
  h_S1024x1 : 0 < S1024x1.numel
  dot_S1024x128_S128x4_S1024x4_1_0_0_1_n_n_wf : DotDims.WF S1024x128 S128x4 S1024x4 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x128.size a ≤ S4x256x128.size a
  hwx0_2 : ∀ i : grid0.Coords, EltTy.bits .f32 = 32 ∨ (Rect.block (s := S4x256x128) S4x256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x1.size a ≤ S4x128x1.size a
  hwx0_4 : ∀ i : grid0.Coords, EltTy.bits .f32 = 32 ∨ (Rect.block (s := S4x128x1) S4x128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S131072x1.size a
  hwx0_6 : ∀ i : grid0.Coords, EltTy.bits .f32 = 32 ∨ (Rect.block (s := S131072x1) S1024x1.size (cc0_transform_6 i) (hinb0_6 i)).WholeWords (EltTy.packing .f32)

variable [Facts₀]

def dot_S1024x128_S128x4_S1024x4_1_0_0_1_n_n : DotDims S1024x128 S128x4 S1024x4 where
  lhsContracting := [1]
  rhsContracting := [0]
  lhsNonContracting := [0]
  rhsNonContracting := [1]
  lhsBatch := []
  rhsBatch := []
  wf := dot_S1024x128_S128x4_S1024x4_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x4 : Shape := ⟨2, ![128, 4]⟩
abbrev S4x256x128 : Shape := ⟨3, ![4, 256, 128]⟩
abbrev S4x128 : Shape := ⟨2, ![4, 128]⟩
abbrev S4x128x1 : Shape := ⟨3, ![4, 128, 1]⟩
abbrev S4x1 : Shape := ⟨2, ![4, 1]⟩
abbrev S131072x4 : Shape := ⟨2, ![131072, 4]⟩
abbrev S_ : Shape := ⟨0, ![]⟩
abbrev S131072x256 : Shape := ⟨2, ![131072, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S131072x1 : Shape := ⟨2, ![131072, 1]⟩
abbrev S1x1 : Shape := ⟨2, ![1, 1]⟩
abbrev S1 : Shape := ⟨1, ![1]⟩
abbrev S131072 : Shape := ⟨1, ![131072]⟩
abbrev S131072x3 : Shape := ⟨2, ![131072, 3]⟩
abbrev S131072x2 : Shape := ⟨2, ![131072, 2]⟩

abbrev nBuf : Space → Nat
  | .hbm => 144
  | .vmem => 0
  | .smem => 0
  | _ => 0

abbrev hbmTy0_0 (i : Nat) : BufTy := match i % 128 with
  | 0 => ⟨S131072x128, .f32⟩
  | 1 => ⟨S128x4, .f32⟩
  | 2 => ⟨S4x256x128, .f32⟩
  | 3 => ⟨S4x128, .f32⟩
  | 4 => ⟨S4x128x1, .f32⟩
  | 5 => ⟨S4x1, .f32⟩
  | 6 => ⟨S131072x4, .f32⟩
  | 7 => ⟨S_, .f32⟩
  | 8 => ⟨S131072x4, .f32⟩
  | 9 => ⟨S131072x4, .f32⟩
  | 10 => ⟨S131072x256, .f32⟩
  | 11 => ⟨S1x256x128, .f32⟩
  | 12 => ⟨S256x128, .f32⟩
  | 13 => ⟨S131072x128, .f32⟩
  | 14 => ⟨S1x128, .f32⟩
  | 15 => ⟨S128, .f32⟩
  | 16 => ⟨S1x128, .f32⟩
  | 17 => ⟨S131072x128, .f32⟩
  | 18 => ⟨S131072x128, .f32⟩
  | 19 => ⟨S_, .f32⟩
  | 20 => ⟨S131072x128, .f32⟩
  | 21 => ⟨S131072x128, .f32⟩
  | 22 => ⟨S1x128x1, .f32⟩
  | 23 => ⟨S128x1, .f32⟩
  | 24 => ⟨S131072x1, .f32⟩
  | 25 => ⟨S1x1, .f32⟩
  | 26 => ⟨S1, .f32⟩
  | 27 => ⟨S1x1, .f32⟩
  | 28 => ⟨S131072x1, .f32⟩
  | 29 => ⟨S131072x1, .f32⟩
  | 30 => ⟨S131072x1, .f32⟩
  | 31 => ⟨S131072, .f32⟩
  | 32 => ⟨S_, .f32⟩
  | 33 => ⟨S131072, .f32⟩
  | 34 => ⟨S131072, .i1⟩
  | 35 => ⟨S131072, .f32⟩
  | 36 => ⟨S131072x1, .f32⟩
  | 37 => ⟨S131072x3, .f32⟩
  | 38 => ⟨S_, .f32⟩
  | 39 => ⟨S131072, .f32⟩
  | 40 => ⟨S_, .f32⟩
  | 41 => ⟨S131072, .f32⟩
  | 42 => ⟨S131072, .i1⟩
  | 43 => ⟨S131072, .f32⟩
  | 44 => ⟨S131072x1, .f32⟩
  | 45 => ⟨S131072x1, .f32⟩
  | 46 => ⟨S131072x256, .f32⟩
  | 47 => ⟨S1x256x128, .f32⟩
  | 48 => ⟨S256x128, .f32⟩
  | 49 => ⟨S131072x128, .f32⟩
  | 50 => ⟨S1x128, .f32⟩
  | 51 => ⟨S128, .f32⟩
  | 52 => ⟨S1x128, .f32⟩
  | 53 => ⟨S131072x128, .f32⟩
  | 54 => ⟨S131072x128, .f32⟩
  | 55 => ⟨S_, .f32⟩
  | 56 => ⟨S131072x128, .f32⟩
  | 57 => ⟨S131072x128, .f32⟩
  | 58 => ⟨S1x128x1, .f32⟩
  | 59 => ⟨S128x1, .f32⟩
  | 60 => ⟨S131072x1, .f32⟩
  | 61 => ⟨S1x1, .f32⟩
  | 62 => ⟨S1, .f32⟩
  | 63 => ⟨S1x1, .f32⟩
  | 64 => ⟨S131072x1, .f32⟩
  | 65 => ⟨S131072x1, .f32⟩
  | 66 => ⟨S131072x1, .f32⟩
  | 67 => ⟨S131072, .f32⟩
  | 68 => ⟨S_, .f32⟩
  | 69 => ⟨S131072, .f32⟩
  | 70 => ⟨S131072, .i1⟩
  | 71 => ⟨S131072, .f32⟩
  | 72 => ⟨S131072x1, .f32⟩
  | 73 => ⟨S131072x2, .f32⟩
  | 74 => ⟨S_, .f32⟩
  | 75 => ⟨S131072, .f32⟩
  | 76 => ⟨S_, .f32⟩
  | 77 => ⟨S131072, .f32⟩
  | 78 => ⟨S131072, .i1⟩
  | 79 => ⟨S131072, .f32⟩
  | 80 => ⟨S131072x1, .f32⟩
  | 81 => ⟨S131072x1, .f32⟩
  | 82 => ⟨S131072x256, .f32⟩
  | 83 => ⟨S1x256x128, .f32⟩
  | 84 => ⟨S256x128, .f32⟩
  | 85 => ⟨S131072x128, .f32⟩
  | 86 => ⟨S1x128, .f32⟩
  | 87 => ⟨S128, .f32⟩
  | 88 => ⟨S1x128, .f32⟩
  | 89 => ⟨S131072x128, .f32⟩
  | 90 => ⟨S131072x128, .f32⟩
  | 91 => ⟨S_, .f32⟩
  | 92 => ⟨S131072x128, .f32⟩
  | 93 => ⟨S131072x128, .f32⟩
  | 94 => ⟨S1x128x1, .f32⟩
  | 95 => ⟨S128x1, .f32⟩
  | 96 => ⟨S131072x1, .f32⟩
  | 97 => ⟨S1x1, .f32⟩
  | 98 => ⟨S1, .f32⟩
  | 99 => ⟨S1x1, .f32⟩
  | 100 => ⟨S131072x1, .f32⟩
  | 101 => ⟨S131072x1, .f32⟩
  | 102 => ⟨S131072x1, .f32⟩
  | 103 => ⟨S131072, .f32⟩
  | 104 => ⟨S_, .f32⟩
  | 105 => ⟨S131072, .f32⟩
  | 106 => ⟨S131072, .i1⟩
  | 107 => ⟨S131072, .f32⟩
  | 108 => ⟨S131072x1, .f32⟩
  | 109 => ⟨S131072x1, .f32⟩
  | 110 => ⟨S_, .f32⟩
  | 111 => ⟨S131072, .f32⟩
  | 112 => ⟨S_, .f32⟩
  | 113 => ⟨S131072, .f32⟩
  | 114 => ⟨S131072, .i1⟩
  | 115 => ⟨S131072, .f32⟩
  | 116 => ⟨S131072x1, .f32⟩
  | 117 => ⟨S131072x1, .f32⟩
  | 118 => ⟨S131072x256, .f32⟩
  | 119 => ⟨S1x256x128, .f32⟩
  | 120 => ⟨S256x128, .f32⟩
  | 121 => ⟨S131072x128, .f32⟩
  | 122 => ⟨S1x128, .f32⟩
  | 123 => ⟨S128, .f32⟩
  | 124 => ⟨S1x128, .f32⟩
  | 125 => ⟨S131072x128, .f32⟩
  | 126 => ⟨S131072x128, .f32⟩
  | 127 => ⟨S_, .f32⟩
  | _ => ⟨S131072x128, .f32⟩

abbrev hbmTy0_1 (i : Nat) : BufTy := match i % 128 with
  | 0 => ⟨S131072x128, .f32⟩
  | 1 => ⟨S131072x128, .f32⟩
  | 2 => ⟨S1x128x1, .f32⟩
  | 3 => ⟨S128x1, .f32⟩
  | 4 => ⟨S131072x1, .f32⟩
  | 5 => ⟨S1x1, .f32⟩
  | 6 => ⟨S1, .f32⟩
  | 7 => ⟨S1x1, .f32⟩
  | 8 => ⟨S131072x1, .f32⟩
  | 9 => ⟨S131072x1, .f32⟩
  | 10 => ⟨S131072x1, .f32⟩
  | 11 => ⟨S131072x1, .f32⟩
  | 12 => ⟨S131072x1, .f32⟩
  | 13 => ⟨S131072x1, .f32⟩
  | 14 => ⟨S131072x1, .f32⟩
  | 15 => ⟨S131072x1, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call2_cst : Ref sig .tc := ⟨.hbm, 55, rfl⟩
abbrev main_call2_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_3 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call3_cst : Ref sig .tc := ⟨.hbm, 91, rfl⟩
abbrev main_call3_v0 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_5 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_6 : Ref sig .tc := ⟨.hbm, 110, rfl⟩
abbrev main_v89 : Ref sig .tc := ⟨.hbm, 111, rfl⟩
abbrev main_cst_7 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_call4_cst : Ref sig .tc := ⟨.hbm, 127, rfl⟩
abbrev main_call4_v0 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩

abbrev nD : Nat := 1
abbrev τ : Topo := Topo.v7x

variable {F : FTy → Type} [FloatOps F]

class Facts₀ : Prop where
  bcast_S_S131072x4 : S_.BroadcastsInDim S131072x4 (![] : Fin 0 → Fin S131072x4.rank)
  concatenates_S131072x128_S131072x128_S131072x256_d1 : Shape.Concatenates [S131072x128, S131072x128] S131072x256 1
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S4x128x1_S1x128x1_0_0_0 : S4x128x1.Slices ![0, 0, 0] S1x128x1
  shapeCasts_S1x128x1_S128x1 : S1x128x1.ShapeCasts S128x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  slices_S131072x4_S131072x1_0_0 : S131072x4.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x4_S131072x3_0_1 : S131072x4.Slices ![0, 1] S131072x3
  reducesTo_S131072x3_S131072_d1 : S131072x3.ReducesTo [1] S131072
  h_S_ : 0 < S_.numel
  slices_S4x256x128_S1x256x128_1_0_0 : S4x256x128.Slices ![1, 0, 0] S1x256x128
  slices_S4x128_S1x128_1_0 : S4x128.Slices ![1, 0] S1x128
  slices_S4x128x1_S1x128x1_1_0_0 : S4x128x1.Slices ![1, 0, 0] S1x128x1
  slices_S4x1_S1x1_1_0 : S4x1.Slices ![1, 0] S1x1
  slices_S131072x4_S131072x1_0_1 : S131072x4.Slices ![0, 1] S131072x1
  slices_S131072x4_S131072x2_0_2 : S131072x4.Slices ![0, 2] S131072x2
  reducesTo_S131072x2_S131072_d1 : S131072x2.ReducesTo [1] S131072
  slices_S4x256x128_S1x256x128_2_0_0 : S4x256x128.Slices ![2, 0, 0] S1x256x128
  slices_S4x128_S1x128_2_0 : S4x128.Slices ![2, 0] S1x128
  slices_S4x128x1_S1x128x1_2_0_0 : S4x128x1.Slices ![2, 0, 0] S1x128x1
  slices_S4x1_S1x1_2_0 : S4x1.Slices ![2, 0] S1x1
  slices_S131072x4_S131072x1_0_2 : S131072x4.Slices ![0, 2] S131072x1
  slices_S131072x4_S131072x1_0_3 : S131072x4.Slices ![0, 3] S131072x1
  reducesTo_S131072x1_S131072_d1 : S131072x1.ReducesTo [1] S131072
  slices_S4x256x128_S1x256x128_3_0_0 : S4x256x128.Slices ![3, 0, 0] S1x256x128
  slices_S4x128_S1x128_3_0 : S4x128.Slices ![3, 0] S1x128
  slices_S4x128x1_S1x128x1_3_0_0 : S4x128x1.Slices ![3, 0, 0] S1x128x1
  slices_S4x1_S1x1_3_0 : S4x1.Slices ![3, 0] S1x1
  dot_S131072x128_S128x4_S131072x4_1_0_0_1_n_n_wf : DotDims.WF S131072x128 S128x4 S131072x4 [1] [0] [0] [1] [] []
  dot_S131072x256_S256x128_S131072x128_1_0_0_1_n_n_wf : DotDims.WF S131072x256 S256x128 S131072x128 [1] [0] [0] [1] [] []
  dot_S131072x128_S128x1_S131072x1_1_0_0_1_n_n_wf : DotDims.WF S131072x128 S128x1 S131072x1 [1] [0] [0] [1] [] []

variable [Facts₀]

def dot_S131072x128_S128x4_S131072x4_1_0_0_1_n_n : DotDims S131072x128 S128x4 S131072x4 where
  lhsContracting := [1]
  rhsContracting := [0]
  lhsNonContracting := [0]
  rhsNonContracting := [1]
  lhsBatch := []
  rhsBatch := []
  wf := dot_S131072x128_S128x4_S131072x4_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.LibRowOps.lean ====
/-
  Two general facts about matrices handled one row at a time, for any number of rows and any widths.
  `sum_rows`: a matrix product that contracts the left operand's columns with the right operand's rows, read at
  entry (p, j), is the sum over k of left (p, k) times right (k, j), whatever record of dimension numbers spells it,
  given the four coordinate facts of that record.  `concat_cols_at`: two matrices joined along their columns, read
  at (p, k), give the first at (p, k) for k below its width and the second at (p, k - width) from there on.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.ValueIdx

/-- A product of an [n, K] by a [K, M] matrix whose contraction runs over one axis of extent K, the left operand's
    rows and the right operand's columns kept: the sum over the contraction index, re-indexed by k : Fin K. The
    hypotheses are the record's coordinate facts: where its operand indices put the output's row and column and the
    contraction coordinate. -/
theorem sum_rows {n K M : Nat} (d : DotDims ⟨2, ![n, K]⟩ ⟨2, ![K, M]⟩ ⟨2, ![n, M]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (l : (⟨2, ![n, K]⟩ : Shape).Idx → EReal) (r : (⟨2, ![K, M]⟩ : Shape).Idx → EReal) (p : Fin n) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-- Two matrices of n rows joined along the columns, read at row p and column k. -/
theorem concat_cols_at {α : Type} {n c1 c2 c : Nat} (hc : c = c1 + c2)
    (a : (⟨2, ![n, c1]⟩ : Shape).Idx → α) (x : (⟨2, ![n, c2]⟩ : Shape).Idx → α)
    (h : Shape.Concatenates [(⟨2, ![n, c1]⟩ : Shape), ⟨2, ![n, c2]⟩] ⟨2, ![n, c]⟩ 1) (p : Fin n) (k : Fin c) :
    concatenate ⟨2, ![n, c]⟩ 1 [⟨⟨2, ![n, c1]⟩, a⟩, ⟨⟨2, ![n, c2]⟩, x⟩] h (ix2 p k)
      = if hk : k.val < c1 then a (ix2 p ⟨k.val, hk⟩) else x (ix2 p ⟨k.val - c1, by have := k.isLt; omega⟩) := by
  split
  · next hk =>
    exact concatenate_pair_apply_left 1 a x h (ix2 p k) rfl (ix2 p ⟨k.val, hk⟩) (fun b => by
      match b with
      | ⟨0, _⟩ => rfl
      | ⟨1, _⟩ => rfl)
  · next hk =>
    exact concatenate_pair_apply_right 1 a x h (ix2 p k) rfl rfl (ix2 p ⟨k.val - c1, by have := k.isLt; omega⟩) (fun b hb => by
      match b, hb with
      | ⟨0, _⟩, _ => rfl
      | ⟨1, _⟩, hb => exact absurd rfl hb) (by show (k.val - c1) + c1 = k.val; omega)

end Cert.Lib.RowOps

end
-- ==== Proof.KDots.lean ====
/-
  The kernel's three matrix products read at one entry.  Each contracts the second axis of its left operand with
  the first axis of its right operand and accumulates into zeros, so entry (p, j) of the product is the plain sum
  over k of left (p, k) times right (k, j): the router's 128-term sums, the dense layers' 256-term sums and the
  estimators' 128-term sums.
-/
import proofs.«109851_j56392920597063_1_alg».proof.Proof.Gen.KernelIdeal
import proofs.«109851_j56392920597063_1_alg».proof.Proof.LibRowOps

noncomputable section

namespace Cert.KernelIdeal.Dots

open Cert.KernelIdeal Cert.Lib.RowOps Idealize.ShloMosaic Idealize.ShloMosaic.ValueIdx

/-! ## The router's product: [1024, 128] by [128, 4] -/

theorem router_lhs_0 (i : S1024x4.Idx) (q : dot_S1024x128_S128x4_S1024x4_1_0_0_1_n_n.contr.Idx) :
    (dot_S1024x128_S128x4_S1024x4_1_0_0_1_n_n.lhsIdx i q 0).val = (i 0).val := by
  unfold DotDims.lhsIdx
  rw [dif_neg (show ¬(0 : Fin S1024x128.rank) ∈ dot_S1024x128_S128x4_S1024x4_1_0_0_1_n_n.lhsBatch by decide), dif_pos (show (0 : Fin S1024x128.rank) ∈ dot_S1024x128_S128x4_S1024x4_1_0_0_1_n_n.lhsNonContracting by decide)]
  rfl
theorem router_lhs_1 (i : S1024x4.Idx) (q : dot_S1024x128_S128x4_S1024x4_1_0_0_1_n_n.contr.Idx) :
    (dot_S1024x128_S128x4_S1024x4_1_0_0_1_n_n.lhsIdx i q 1).val = (q ⟨0, by decide⟩).val :=
  dot_S1024x128_S128x4_S1024x4_1_0_0_1_n_n.lhsIdx_val_of_single rfl i q
theorem router_rhs_0 (i : S1024x4.Idx) (q : dot_S1024x128_S128x4_S1024x4_1_0_0_1_n_n.contr.Idx) :
    (dot_S1024x128_S128x4_S1024x4_1_0_0_1_n_n.rhsIdx i q 0).val = (q ⟨0, by decide⟩).val :=
  dot_S1024x128_S128x4_S1024x4_1_0_0_1_n_n.rhsIdx_val_of_single rfl i q
theorem router_rhs_1 (i : S1024x4.Idx) (q : dot_S1024x128_S128x4_S1024x4_1_0_0_1_n_n.contr.Idx) :
    (dot_S1024x128_S128x4_S1024x4_1_0_0_1_n_n.rhsIdx i q 1).val = (i 1).val := by
  unfold DotDims.rhsIdx
  rw [dif_neg (show ¬(1 : Fin S128x4.rank) ∈ dot_S1024x128_S128x4_S1024x4_1_0_0_1_n_n.rhsBatch by decide), dif_pos (show (1 : Fin S128x4.rank) ∈ dot_S1024x128_S128x4_S1024x4_1_0_0_1_n_n.rhsNonContracting by decide)]
  rfl

/-- Entry (p, d) of the router's product into zeros. -/
theorem router_dot {φ₁ φ₂ : FTy} (prec : Option ContractPrecision) (l : FVec Ideal S1024x128 φ₁) (r : FVec Ideal S128x4 φ₂)
    (p : Fin 1024) (d : Fin 4) :
    matmul dot_S1024x128_S128x4_S1024x4_1_0_0_1_n_n prec l r (constant S1024x4 .f32 0x00000000#32) (ix2 p d)
      = ∑ k : Fin 128, l (ix2 p k) * r (ix2 k d) :=
  (Ideal.matmul_constant_zero_apply dot_S1024x128_S128x4_S1024x4_1_0_0_1_n_n prec l r (ix2 p d)).trans
    (sum_rows dot_S1024x128_S128x4_S1024x4_1_0_0_1_n_n rfl rfl router_lhs_0 router_lhs_1 router_rhs_0 router_rhs_1 l r p d)

/-! ## A dense layer's product: [1024, 256] by [256, 128] -/

theorem layer_lhs_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem layer_lhs_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem layer_rhs_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem layer_rhs_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl

/-- Entry (p, j) of a dense layer's product into zeros. -/
theorem layer_dot {φ₁ φ₂ : FTy} (prec : Option ContractPrecision) (l : FVec Ideal S1024x256 φ₁) (r : FVec Ideal S256x128 φ₂)
    (p : Fin 1024) (j : Fin 128) :
    matmul dot_S1024x256_S256x128_S1024x128_1_0_0_1_n_n prec l r (constant S1024x128 .f32 0x00000000#32) (ix2 p j)
      = ∑ k : Fin 256, l (ix2 p k) * r (ix2 k j) :=
  (Ideal.matmul_constant_zero_apply dot_S1024x256_S256x128_S1024x128_1_0_0_1_n_n prec l r (ix2 p j)).trans
    (sum_rows dot_S1024x256_S256x128_S1024x128_1_0_0_1_n_n rfl rfl layer_lhs_0 layer_lhs_1 layer_rhs_0 layer_rhs_1 l r p j)

/-! ## An estimator's product: [1024, 128] by [128, 1] -/

theorem est_lhs_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem est_lhs_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem est_rhs_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem est_rhs_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

/-- Entry (p, 0) of an estimator's product into zeros. -/
theorem est_dot {φ₁ φ₂ : FTy} (prec : Option ContractPrecision) (l : FVec Ideal S1024x128 φ₁) (r : FVec Ideal S128x1 φ₂)
    (p : Fin 1024) (c : Fin 1) :
    matmul dot_S1024x128_S128x1_S1024x1_1_0_0_1_n_n prec l r (constant S1024x1 .f32 0x00000000#32) (ix2 p c)
      = ∑ k : Fin 128, l (ix2 p k) * r (ix2 k c) :=
  (Ideal.matmul_constant_zero_apply dot_S1024x128_S128x1_S1024x1_1_0_0_1_n_n prec l r (ix2 p c)).trans
    (sum_rows dot_S1024x128_S128x1_S1024x1_1_0_0_1_n_n rfl rfl est_lhs_0 est_lhs_1 est_rhs_0 est_rhs_1 l r p c)

end Cert.KernelIdeal.Dots

end
-- ==== Proof.RowSpec.lean ====
/-
  What both programs compute, written for ONE batch row.  A row `x : Fin 128 → EReal` of the input is routed
  through four stacked dense layers; layer `l` sees the previous layer's activation joined with the row itself
  (256 entries), multiplies by `W_layers[l]`, adds `b_layers[l]` and clips below at zero; an estimator
  `W_est[l]`, `b_est[l]` turns each activation into one number.  Four router gates `max (x · Wr) 0` decide, depth
  by depth, whether the row leaves with the estimate of that depth (gate `l` positive) and whether it goes on to
  deeper layers (the sum of the later gates positive); the result folds these choices from the last depth back to
  the first.  Every number is an extended real and every operation the exact one, so nothing here rounds.
-/
import Idealize.ShloMosaic.Lib.ValueIdx
import Idealize.ShloMosaic.PureOps.Ideal.Laws

noncomputable section

namespace Cert.RowSpec

open Idealize.ShloMosaic Idealize.ShloMosaic.ValueIdx

/-- One batch row of activations. -/
abbrev Row := Fin 128 → EReal

abbrev RouterW := (⟨2, ![128, 4]⟩ : Shape).Idx → EReal
abbrev LayerW := (⟨3, ![4, 256, 128]⟩ : Shape).Idx → EReal
abbrev LayerB := (⟨2, ![4, 128]⟩ : Shape).Idx → EReal
abbrev EstW := (⟨3, ![4, 128, 1]⟩ : Shape).Idx → EReal
abbrev EstB := (⟨2, ![4, 1]⟩ : Shape).Idx → EReal

/-- The 0/1 indicator of `0 < g`, as the comparison bit read as a number. -/
def ind (g : EReal) : EReal := (((Ideal.cmp .ogt g 0).toNat : ℝ) : EReal)

/-- Router gate `d` of a row: the row's product with column `d` of `Wr`, clipped below at zero. -/
def gate (Wr : RouterW) (x : Row) (d : Fin 4) : EReal := max (∑ k : Fin 128, x k * Wr (ix2 k d)) 0

/-- The previous activation followed by the row: 256 entries. -/
def cat (a x : Row) (k : Fin 256) : EReal :=
  if h : k.val < 128 then a ⟨k.val, h⟩ else x ⟨k.val - 128, by have := k.isLt; omega⟩

/-- Dense layer `l` on the joined row, with bias and clipping at zero. -/
def layer (Wl : LayerW) (bl : LayerB) (l : Fin 4) (a x : Row) : Row :=
  fun j => max ((∑ k : Fin 256, cat a x k * Wl (ix3 l k j)) + bl (ix2 l j)) 0

/-- Estimator `l` on an activation. -/
def pred (We : EstW) (be : EstB) (l : Fin 4) (a : Row) : EReal :=
  (∑ k : Fin 128, a k * We (ix3 l k 0)) + be (ix2 l 0)

/-- The sums of the gates after depth 0, 1, 2. -/
def later1 (g : Fin 4 → EReal) : EReal := ∑ k : Fin 3, g ⟨1 + k.val, by have := k.isLt; omega⟩
def later2 (g : Fin 4 → EReal) : EReal := ∑ k : Fin 2, g ⟨2 + k.val, by have := k.isLt; omega⟩
def later3 (g : Fin 4 → EReal) : EReal := ∑ k : Fin 1, g ⟨3 + k.val, by have := k.isLt; omega⟩

/-- The fold of the four estimates by the gates, from the deepest layer back to the first. -/
def combine (g : Fin 4 → EReal) (p0 p1 p2 p3 : EReal) : EReal :=
  ind (g 0) * p0 + ind (later1 g) * (ind (g 1) * p1 + ind (later2 g) * (ind (g 2) * p2 + ind (later3 g) * p3))

/-- The whole computation on one row. -/
def out (Wr : RouterW) (Wl : LayerW) (bl : LayerB) (We : EstW) (be : EstB) (x : Row) : EReal :=
  combine (gate Wr x)
    (pred We be 0 (layer Wl bl 0 x x))
    (pred We be 1 (layer Wl bl 1 (layer Wl bl 0 x x) x))
    (pred We be 2 (layer Wl bl 2 (layer Wl bl 1 (layer Wl bl 0 x x) x) x))
    (pred We be 3 (layer Wl bl 3 (layer Wl bl 2 (layer Wl bl 1 (layer Wl bl 0 x x) x) x) x))

/-- The result array: row `r` of the input through `out`. -/
def result (x : (⟨2, ![131072, 128]⟩ : Shape).Idx → EReal) (Wr : RouterW) (Wl : LayerW) (bl : LayerB) (We : EstW) (be : EstB) :
    (⟨2, ![131072, 1]⟩ : Shape).Idx → EReal :=
  fun i => out Wr Wl bl We be (fun k => x (ix2 (⟨(i 0).val, idx2_lt0 i⟩ : Fin 131072) k))

end Cert.RowSpec

end
-- ==== Proof.KBody.lean ====
/-
  The kernel body's arithmetic on one block of 1024 rows, read one row at a time.  The body joins the previous
  activation with the block, multiplies by a layer's 256 x 128 weights, adds the bias row and clips at zero; an
  estimator multiplies the activation by a 128 x 1 column and adds its bias; the gates are the block times the
  router's 128 x 4 weights clipped at zero.  Row p of every one of these depends on row p of the block alone, and
  is the row function of the specification.
-/
import proofs.«109851_j56392920597063_1_alg».proof.Proof.Gen.KernelIdeal.Skeleton
import proofs.«109851_j56392920597063_1_alg».proof.Proof.KDots
import proofs.«109851_j56392920597063_1_alg».proof.Proof.RowSpec
import Idealize.ShloMosaic.Lib.ValueLayout
import Idealize.ShloMosaic.Lib.Pipeline.Value
import Idealize.ShloMosaic.Lib.KernelVsHost

noncomputable section

namespace Cert.KernelIdeal.Body

open Cert.KernelIdeal Cert.KernelIdeal.Gen Cert.RowSpec Idealize.ShloMosaic Idealize.ShloMosaic.ValueIdx

/-- Row p of a block of activations. -/
def rowOf (a : FVec Ideal S1024x128 .f32) (p : Fin 1024) : Row := fun k => a (ix2 p k)

/-- The zero word is the number zero. -/
theorem zero_word : (Scalar.ofBits .f32 0x00000000#32 : Ideal .f32) = 0 := Ideal.ofBits_zero_f32

/-- A comparison bit widened to a word and converted signed is the 0/1 indicator. -/
theorem mask_at (g : FVec Ideal S1024x1 .f32) (i : S1024x1.Idx) :
    (sitofp .f32 (extui 32 (cmpf .ogt g (broadcast S1024x1 (Scalar.ofBits .f32 0x00000000#32))) natLt_1_32) : FVec Ideal S1024x1 .f32) i
      = ind (g i) := by
  show ((((Ideal.cmp .ogt (g i) (Ideal.ofBits .f32 0x00000000#32)).setWidth 32).toInt : ℝ) : EReal) = _
  rw [toInt_setWidth_bit, Ideal.ofBits_zero_f32]
  unfold ind
  norm_cast

/-- The previous activation joined with the block along the columns, at row p, is the joined row. -/
theorem joined_at (a x : FVec Ideal S1024x128 .f32) (p : Fin 1024) (k : Fin 256) :
    concatenate S1024x256 1 [⟨S1024x128, a⟩, ⟨S1024x128, x⟩] concatenates_S1024x128_S1024x128_S1024x256_d1 (ix2 p k)
      = cat (rowOf a p) (rowOf x p) k := by
  unfold cat
  split
  · next h =>
    exact concatenate_pair_apply_left 1 a x _ (ix2 p k) rfl (ix2 p ⟨k.val, h⟩) (fun b => by
      match b with
      | ⟨0, _⟩ => rfl
      | ⟨1, _⟩ => rfl)
  · next h =>
    exact concatenate_pair_apply_right 1 a x _ (ix2 p k) rfl rfl (ix2 p ⟨k.val - 128, by have := k.isLt; omega⟩) (fun b hb => by
      match b, hb with
      | ⟨0, _⟩, _ => rfl
      | ⟨1, _⟩, hb => exact absurd rfl hb) (by show (k.val - 128) + 128 = k.val; omega)

/-- One dense layer of the body on a block: the joined block times the layer's weights into zeros, plus the bias
    row laid along every row, clipped below at zero. -/
def dense (a x : FVec Ideal S1024x128 .f32) (w : FVec Ideal S1x256x128 .f32) (b : FVec Ideal S1x128 .f32) : FVec Ideal S1024x128 .f32 :=
  maximumf (addf (matmul dot_S1024x256_S256x128_S1024x128_1_0_0_1_n_n none
      (truncf .bf16 (concatenate S1024x256 1 [⟨S1024x128, a⟩, ⟨S1024x128, x⟩] concatenates_S1024x128_S1024x128_S1024x256_d1) bitsLt_bf16_f32)
      (truncf .bf16 (shapeCast S256x128 w shapeCasts_S1x256x128_S256x128) bitsLt_bf16_f32) (constant S1024x128 .f32 0x00000000#32))
    (broadcastTo S1024x128 (shapeCast S1x128 (shapeCast S128 b shapeCasts_S1x128_S128) shapeCasts_S128_S1x128) broadcasts_S1x128_S1024x128))
    (broadcast S1024x128 (Scalar.ofBits .f32 0x00000000#32))

/-- Entry (p, j) of a dense layer's block. -/
theorem dense_at (a x : FVec Ideal S1024x128 .f32) (w : FVec Ideal S1x256x128 .f32) (b : FVec Ideal S1x128 .f32) (p : Fin 1024) (j : Fin 128) :
    dense a x w b (ix2 p j)
      = max ((∑ k : Fin 256, cat (rowOf a p) (rowOf x p) k * w (ix3 (0 : Fin 1) k j)) + b (ix2 (0 : Fin 1) j)) 0 := by
  unfold dense
  rw [maximumf_apply, addf_apply, broadcast_apply, zero_word, Dots.layer_dot, shapeCast_shapeCast,
    broadcastTo_1b_ab_apply]
  refine congrArg (fun s => max (s + b (ix2 (0 : Fin 1) j)) 0) (Finset.sum_congr rfl fun k _ => ?_)
  rw [truncf_apply, truncf_apply, joined_at, shapeCast_1ab_ab_apply]

/-- Row p of a dense layer's block is the specification's layer on row p of its operands, when the loaded weights
    and bias are those of depth l. -/
theorem dense_row (a x : FVec Ideal S1024x128 .f32) (w : FVec Ideal S1x256x128 .f32) (b : FVec Ideal S1x128 .f32)
    (Wl : LayerW) (bl : LayerB) (l : Fin 4) (hw : ∀ k j, w (ix3 (0 : Fin 1) k j) = Wl (ix3 l k j))
    (hb : ∀ j, b (ix2 (0 : Fin 1) j) = bl (ix2 l j)) (p : Fin 1024) :
    rowOf (dense a x w b) p = layer Wl bl l (rowOf a p) (rowOf x p) := by
  funext j
  show dense a x w b (ix2 p j) = _
  rw [dense_at, hb]
  unfold layer
  simp only [hw]

/-- An estimator of the body on a block: the activation times the estimator's column into zeros, plus its bias. -/
def estim (a : FVec Ideal S1024x128 .f32) (w : FVec Ideal S1x128x1 .f32) (b : FVec Ideal S1x1 .f32) : FVec Ideal S1024x1 .f32 :=
  addf (matmul dot_S1024x128_S128x1_S1024x1_1_0_0_1_n_n none (truncf .bf16 a bitsLt_bf16_f32)
      (truncf .bf16 (shapeCast S128x1 w shapeCasts_S1x128x1_S128x1) bitsLt_bf16_f32) (constant S1024x1 .f32 0x00000000#32))
    (broadcastTo S1024x1 (shapeCast S1x1 (shapeCast S1 b shapeCasts_S1x1_S1) shapeCasts_S1_S1x1) broadcasts_S1x1_S1024x1)

/-- Entry (p, c) of an estimator's block. -/
theorem estim_at (a : FVec Ideal S1024x128 .f32) (w : FVec Ideal S1x128x1 .f32) (b : FVec Ideal S1x1 .f32) (p : Fin 1024) (c : Fin 1) :
    estim a w b (ix2 p c) = (∑ k : Fin 128, a (ix2 p k) * w (ix3 (0 : Fin 1) k c)) + b (ix2 (0 : Fin 1) c) := by
  unfold estim
  rw [addf_apply, Dots.est_dot, shapeCast_shapeCast, broadcastTo_1b_ab_apply]
  refine congrArg (· + b (ix2 (0 : Fin 1) c)) (Finset.sum_congr rfl fun k _ => ?_)
  rw [truncf_apply, truncf_apply, shapeCast_1ab_ab_apply]

/-- Entry (p, c) of an estimator's block is the specification's estimate of row p, when the loaded column and
    bias are those of depth l. -/
theorem estim_row (a : FVec Ideal S1024x128 .f32) (w : FVec Ideal S1x128x1 .f32) (b : FVec Ideal S1x1 .f32)
    (We : EstW) (be : EstB) (l : Fin 4) (hw : ∀ k, w (ix3 (0 : Fin 1) k (0 : Fin 1)) = We (ix3 l k (0 : Fin 1)))
    (hb : b (ix2 (0 : Fin 1) (0 : Fin 1)) = be (ix2 l (0 : Fin 1))) (p : Fin 1024) (c : Fin 1) :
    estim a w b (ix2 p c) = pred We be l (rowOf a p) := by
  have hc : c = 0 := Subsingleton.elim _ _
  subst hc
  rw [estim_at, hb]
  unfold pred rowOf
  simp only [hw]

/-- The gates of row p of a block. -/
def gatesOf (v4 : FVec Ideal S1024x4 .f32) (p : Fin 1024) : Fin 4 → EReal := fun d => v4 (ix2 p d)

/-- The body's gates: row p of the block times the router's weights, clipped at zero. -/
theorem gate_at (v0 : FVec Ideal S1024x128 .f32) (v1 : FVec Ideal S128x4 .f32) (p : Fin 1024) (d : Fin 4) :
    k0_pay2 (F := Ideal) v0 v1 (ix2 p d) = gate v1 (rowOf v0 p) d := by
  show max (matmul dot_S1024x128_S128x4_S1024x4_1_0_0_1_n_n (some .fp32) v0 v1 (constant S1024x4 .f32 0x00000000#32) (ix2 p d))
    (Scalar.ofBits .f32 0x00000000#32) = _
  rw [zero_word, Dots.router_dot]
  rfl

theorem gates_row (v0 : FVec Ideal S1024x128 .f32) (v1 : FVec Ideal S128x4 .f32) (p : Fin 1024) :
    gatesOf (k0_pay2 (F := Ideal) v0 v1) p = gate v1 (rowOf v0 p) :=
  funext fun d => gate_at v0 v1 p d

/-- The mask "gate o is positive" at row p. -/
theorem exit_at (o : Nat) (ho : o < 4) (v4 : FVec Ideal S1024x4 .f32) (hs : S1024x4.Slices ![0, o] S1024x1) (p : Fin 1024) (c : Fin 1) :
    (sitofp .f32 (extui 32 (cmpf .ogt (extractStridedSlice S1024x1 ![0, o] v4 hs) (broadcast S1024x1 (Scalar.ofBits .f32 0x00000000#32))) natLt_1_32) : FVec Ideal S1024x1 .f32) (ix2 p c)
      = ind (gatesOf v4 p ⟨o, ho⟩) := by
  rw [mask_at]
  exact congrArg ind (slice2_axis1_apply o v4 hs p c ⟨o, ho⟩ (by show o = o + c.val; omega))

/-- The sum along the columns of the m gates from column o on, at row p. -/
theorem later_at {m : Nat} (o : Nat) (v4 : FVec Ideal S1024x4 .f32) (hs : S1024x4.Slices ![0, o] ⟨2, ![1024, m]⟩)
    (hr : (⟨2, ![1024, m]⟩ : Shape).Reduces [1] S1024) (hφ : FKind.Formats .f32)
    (hacc : (0x00000000#32 : BitVec 32) = FKind.add.neutral .f32 hφ) (p : Fin 1024) (c : Fin 1) :
    shapeCast S1024x1 (multiReduction .add [1] S1024 (extractStridedSlice ⟨2, ![1024, m]⟩ ![0, o] v4 hs) 0x00000000#32 hr hφ hacc)
        shapeCasts_S1024_S1024x1 (ix2 p c)
      = ∑ k : Fin m, gatesOf v4 p ⟨o + k.val, Nat.lt_of_lt_of_le (Nat.add_lt_add_left k.isLt o) (hs.2 1)⟩ := by
  have hc : c.val = 0 := by omega
  refine (shapeCast_apply _ shapeCasts_S1024_S1024x1 (ix2 p c) (ix1 p) (by
    rw [Shape.rowMajor_val_one, Shape.rowMajor_val_two]; show p.val = p.val * 1 + c.val; omega)).trans ?_
  refine (Ideal.multiReduction_add_single _ _ hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  exact slice2_axis1_eq o v4 hs p k

/-- The mask "some later gate is positive" at row p. -/
theorem enter_at {m : Nat} (o : Nat) (v4 : FVec Ideal S1024x4 .f32) (hs : S1024x4.Slices ![0, o] ⟨2, ![1024, m]⟩)
    (hr : (⟨2, ![1024, m]⟩ : Shape).Reduces [1] S1024) (hφ : FKind.Formats .f32)
    (hacc : (0x00000000#32 : BitVec 32) = FKind.add.neutral .f32 hφ) (p : Fin 1024) (c : Fin 1) :
    (sitofp .f32 (extui 32 (cmpf .ogt (shapeCast S1024x1 (multiReduction .add [1] S1024 (extractStridedSlice ⟨2, ![1024, m]⟩ ![0, o] v4 hs) 0x00000000#32 hr hφ hacc)
        shapeCasts_S1024_S1024x1) (broadcast S1024x1 (Scalar.ofBits .f32 0x00000000#32))) natLt_1_32) : FVec Ideal S1024x1 .f32) (ix2 p c)
      = ind (∑ k : Fin m, gatesOf v4 p ⟨o + k.val, Nat.lt_of_lt_of_le (Nat.add_lt_add_left k.isLt o) (hs.2 1)⟩) := by
  rw [mask_at, later_at]

/-! ## The fold of the four estimates -/

/-- The innermost step: depth 2's estimate and depth 3's, chosen by gate 2 and by the gates after it. -/
theorem deep_at (v0 : FVec Ideal S1024x128 .f32) (v4 : FVec Ideal S1024x4 .f32) (v63 : FVec Ideal S1024x128 .f32) (v73 : FVec Ideal S1024x1 .f32)
    (v75 : FVec Ideal S1x256x128 .f32) (v78 : FVec Ideal S1x128 .f32) (v87 : FVec Ideal S1x128x1 .f32) (v90 : FVec Ideal S1x1 .f32) (p : Fin 1024) (c : Fin 1) :
    k0_pay12 (F := Ideal) v0 v4 v63 v73 v75 v78 v87 v90 (ix2 p c)
      = ind (gatesOf v4 p 2) * v73 (ix2 p c) + ind (later3 (gatesOf v4 p)) * estim (dense v63 v0 v75 v78) v87 v90 (ix2 p c) := by
  show (sitofp .f32 (extui 32 (cmpf .ogt (extractStridedSlice S1024x1 ![0, 2] v4 slices_S1024x4_o0_2_S1024x1) (broadcast S1024x1 (Scalar.ofBits .f32 0x00000000#32))) natLt_1_32) : FVec Ideal S1024x1 .f32) (ix2 p c) * v73 (ix2 p c)
      + (sitofp .f32 (extui 32 (cmpf .ogt (shapeCast S1024x1 (multiReduction .add [1] S1024 (extractStridedSlice S1024x1 ![0, 3] v4 slices_S1024x4_o0_3_S1024x1) 0x00000000#32 reduces_S1024x1_S1024 (.inl rfl) rfl)
        shapeCasts_S1024_S1024x1) (broadcast S1024x1 (Scalar.ofBits .f32 0x00000000#32))) natLt_1_32) : FVec Ideal S1024x1 .f32) (ix2 p c) * estim (dense v63 v0 v75 v78) v87 v90 (ix2 p c) = _
  exact congrArg₂ (· + ·) (congrArg (· * v73 (ix2 p c)) (exit_at 2 (by decide) v4 _ p c))
    (congrArg (· * estim (dense v63 v0 v75 v78) v87 v90 (ix2 p c))
      (enter_at 3 v4 slices_S1024x4_o0_3_S1024x1 reduces_S1024x1_S1024 (.inl rfl) rfl p c))

/-- The mask of gate 1. -/
theorem second_exit_at (v4 : FVec Ideal S1024x4 .f32) (p : Fin 1024) (c : Fin 1) :
    k0_pay13 (F := Ideal) v4 (ix2 p c) = ind (gatesOf v4 p 1) :=
  exit_at 1 (by decide) v4 slices_S1024x4_o0_1_S1024x1 p c

/-- The two outer steps. -/
theorem top_at (v4 : FVec Ideal S1024x4 .f32) (v27 v50 v111 v116 : FVec Ideal S1024x1 .f32) (p : Fin 1024) (c : Fin 1) :
    k0_pay1 (F := Ideal) v4 v27 v50 v111 v116 (ix2 p c)
      = ind (gatesOf v4 p 0) * v27 (ix2 p c)
        + ind (later1 (gatesOf v4 p)) * (v116 (ix2 p c) * v50 (ix2 p c) + ind (later2 (gatesOf v4 p)) * v111 (ix2 p c)) := by
  show (sitofp .f32 (extui 32 (cmpf .ogt (extractStridedSlice S1024x1 ![0, 0] v4 slices_S1024x4_o0_0_S1024x1) (broadcast S1024x1 (Scalar.ofBits .f32 0x00000000#32))) natLt_1_32) : FVec Ideal S1024x1 .f32) (ix2 p c) * v27 (ix2 p c)
      + (sitofp .f32 (extui 32 (cmpf .ogt (shapeCast S1024x1 (multiReduction .add [1] S1024 (extractStridedSlice S1024x3 ![0, 1] v4 slices_S1024x4_o0_1_S1024x3) 0x00000000#32 reduces_S1024x3_S1024 (.inl rfl) rfl)
        shapeCasts_S1024_S1024x1) (broadcast S1024x1 (Scalar.ofBits .f32 0x00000000#32))) natLt_1_32) : FVec Ideal S1024x1 .f32) (ix2 p c)
        * (v116 (ix2 p c) * v50 (ix2 p c)
          + (sitofp .f32 (extui 32 (cmpf .ogt (shapeCast S1024x1 (multiReduction .add [1] S1024 (extractStridedSlice S1024x2 ![0, 2] v4 slices_S1024x4_o0_2_S1024x2) 0x00000000#32 reduces_S1024x2_S1024 (.inl rfl) rfl)
            shapeCasts_S1024_S1024x1) (broadcast S1024x1 (Scalar.ofBits .f32 0x00000000#32))) natLt_1_32) : FVec Ideal S1024x1 .f32) (ix2 p c) * v111 (ix2 p c)) = _
  exact congrArg₂ (· + ·) (congrArg (· * v27 (ix2 p c)) (exit_at 0 (by decide) v4 _ p c))
    (congrArg₂ (· * ·) (enter_at 1 v4 slices_S1024x4_o0_1_S1024x3 reduces_S1024x3_S1024 (.inl rfl) rfl p c)
      (congrArg (fun z => v116 (ix2 p c) * v50 (ix2 p c) + z * v111 (ix2 p c))
        (enter_at 2 v4 slices_S1024x4_o0_2_S1024x2 reduces_S1024x2_S1024 (.inl rfl) rfl p c)))

/-! ## The payloads of the printed body are these expressions -/

theorem pay3_eq (v0 : FVec Ideal S1024x128 .f32) (v6 : FVec Ideal S1x256x128 .f32) (v9 : FVec Ideal S1x128 .f32) :
    k0_pay3 (F := Ideal) v0 v6 v9 = dense v0 v0 v6 v9 := rfl
theorem pay4_eq (v0 : FVec Ideal S1024x128 .f32) (v6 : FVec Ideal S1x256x128 .f32) (v9 : FVec Ideal S1x128 .f32) (v18 : FVec Ideal S1x128x1 .f32) (v21 : FVec Ideal S1x1 .f32) :
    k0_pay4 (F := Ideal) v0 v6 v9 v18 v21 = estim (dense v0 v0 v6 v9) v18 v21 := rfl
theorem pay8_eq (v0 : FVec Ideal S1024x128 .f32) (v6 : FVec Ideal S1x256x128 .f32) (v9 : FVec Ideal S1x128 .f32) (v29 : FVec Ideal S1x256x128 .f32) (v32 : FVec Ideal S1x128 .f32) :
    k0_pay8 (F := Ideal) (k0_pay5 v29) (k0_pay6 v32) (k0_pay7 v0 v6 v9) = dense (dense v0 v0 v6 v9) v0 v29 v32 := rfl
theorem pay9_eq (v0 : FVec Ideal S1024x128 .f32) (v6 : FVec Ideal S1x256x128 .f32) (v9 : FVec Ideal S1x128 .f32) (v29 : FVec Ideal S1x256x128 .f32) (v32 : FVec Ideal S1x128 .f32)
    (v41 : FVec Ideal S1x128x1 .f32) (v44 : FVec Ideal S1x1 .f32) :
    k0_pay9 (F := Ideal) (k0_pay5 v29) (k0_pay6 v32) (k0_pay7 v0 v6 v9) v41 v44 = estim (dense (dense v0 v0 v6 v9) v0 v29 v32) v41 v44 := rfl
theorem pay10_eq (v0 : FVec Ideal S1024x128 .f32) (v6 : FVec Ideal S1x256x128 .f32) (v9 : FVec Ideal S1x128 .f32) (v29 : FVec Ideal S1x256x128 .f32) (v32 : FVec Ideal S1x128 .f32)
    (v52 : FVec Ideal S1x256x128 .f32) (v55 : FVec Ideal S1x128 .f32) :
    k0_pay10 (F := Ideal) v0 (k0_pay5 v29) (k0_pay6 v32) (k0_pay7 v0 v6 v9) v52 v55 = dense (dense (dense v0 v0 v6 v9) v0 v29 v32) v0 v52 v55 := rfl
theorem pay11_eq (v0 : FVec Ideal S1024x128 .f32) (v6 : FVec Ideal S1x256x128 .f32) (v9 : FVec Ideal S1x128 .f32) (v29 : FVec Ideal S1x256x128 .f32) (v32 : FVec Ideal S1x128 .f32)
    (v52 : FVec Ideal S1x256x128 .f32) (v55 : FVec Ideal S1x128 .f32) (v64 : FVec Ideal S1x128x1 .f32) (v67 : FVec Ideal S1x1 .f32) :
    k0_pay11 (F := Ideal) v0 (k0_pay5 v29) (k0_pay6 v32) (k0_pay7 v0 v6 v9) v52 v55 v64 v67
      = estim (dense (dense (dense v0 v0 v6 v9) v0 v29 v32) v0 v52 v55) v64 v67 := rfl

/-- THE BODY'S STORE at entry (p, c) of the block is the specification's row function of row p of the input block,
    when each loaded piece of the weights is the slice of the arrays it was loaded from. -/
theorem body_at (Wl : LayerW) (bl : LayerB) (We : EstW) (be : EstB)
    (P0 : FVec Ideal S1024x128 .f32) (P1 : FVec Ideal S128x4 .f32)
    (P2 : FVec Ideal S1x256x128 .f32) (P3 : FVec Ideal S1x128 .f32) (P4 : FVec Ideal S1x128x1 .f32) (P5 : FVec Ideal S1x1 .f32)
    (P6 : FVec Ideal S1x256x128 .f32) (P7 : FVec Ideal S1x128 .f32) (P8 : FVec Ideal S1x128x1 .f32) (P9 : FVec Ideal S1x1 .f32)
    (P10 : FVec Ideal S1x256x128 .f32) (P11 : FVec Ideal S1x128 .f32) (P12 : FVec Ideal S1x128x1 .f32) (P13 : FVec Ideal S1x1 .f32)
    (P14 : FVec Ideal S1x256x128 .f32) (P15 : FVec Ideal S1x128 .f32) (P16 : FVec Ideal S1x128x1 .f32) (P17 : FVec Ideal S1x1 .f32)
    (h2 : ∀ k j, P2 (ix3 (0 : Fin 1) k j) = Wl (ix3 0 k j)) (h3 : ∀ j, P3 (ix2 (0 : Fin 1) j) = bl (ix2 0 j))
    (h4 : ∀ k, P4 (ix3 (0 : Fin 1) k (0 : Fin 1)) = We (ix3 0 k (0 : Fin 1))) (h5 : P5 (ix2 (0 : Fin 1) (0 : Fin 1)) = be (ix2 0 (0 : Fin 1)))
    (h6 : ∀ k j, P6 (ix3 (0 : Fin 1) k j) = Wl (ix3 1 k j)) (h7 : ∀ j, P7 (ix2 (0 : Fin 1) j) = bl (ix2 1 j))
    (h8 : ∀ k, P8 (ix3 (0 : Fin 1) k (0 : Fin 1)) = We (ix3 1 k (0 : Fin 1))) (h9 : P9 (ix2 (0 : Fin 1) (0 : Fin 1)) = be (ix2 1 (0 : Fin 1)))
    (h10 : ∀ k j, P10 (ix3 (0 : Fin 1) k j) = Wl (ix3 2 k j)) (h11 : ∀ j, P11 (ix2 (0 : Fin 1) j) = bl (ix2 2 j))
    (h12 : ∀ k, P12 (ix3 (0 : Fin 1) k (0 : Fin 1)) = We (ix3 2 k (0 : Fin 1))) (h13 : P13 (ix2 (0 : Fin 1) (0 : Fin 1)) = be (ix2 2 (0 : Fin 1)))
    (h14 : ∀ k j, P14 (ix3 (0 : Fin 1) k j) = Wl (ix3 3 k j)) (h15 : ∀ j, P15 (ix2 (0 : Fin 1) j) = bl (ix2 3 j))
    (h16 : ∀ k, P16 (ix3 (0 : Fin 1) k (0 : Fin 1)) = We (ix3 3 k (0 : Fin 1))) (h17 : P17 (ix2 (0 : Fin 1) (0 : Fin 1)) = be (ix2 3 (0 : Fin 1)))
    (p : Fin 1024) (c : Fin 1) :
    k0_pay1 (F := Ideal) (k0_pay2 P0 P1) (k0_pay4 P0 P2 P3 P4 P5) (k0_pay9 (k0_pay5 P6) (k0_pay6 P7) (k0_pay7 P0 P2 P3) P8 P9)
        (k0_pay12 P0 (k0_pay2 P0 P1) (k0_pay10 P0 (k0_pay5 P6) (k0_pay6 P7) (k0_pay7 P0 P2 P3) P10 P11)
          (k0_pay11 P0 (k0_pay5 P6) (k0_pay6 P7) (k0_pay7 P0 P2 P3) P10 P11 P12 P13) P14 P15 P16 P17)
        (k0_pay13 (k0_pay2 P0 P1)) (ix2 p c)
      = out P1 Wl bl We be (rowOf P0 p) := by
  have r0 : rowOf (dense P0 P0 P2 P3) p = layer Wl bl 0 (rowOf P0 p) (rowOf P0 p) := dense_row P0 P0 P2 P3 Wl bl 0 h2 h3 p
  have r1 : rowOf (dense (dense P0 P0 P2 P3) P0 P6 P7) p = layer Wl bl 1 (layer Wl bl 0 (rowOf P0 p) (rowOf P0 p)) (rowOf P0 p) := by
    rw [dense_row _ P0 P6 P7 Wl bl 1 h6 h7 p, r0]
  have r2 : rowOf (dense (dense (dense P0 P0 P2 P3) P0 P6 P7) P0 P10 P11) p
      = layer Wl bl 2 (layer Wl bl 1 (layer Wl bl 0 (rowOf P0 p) (rowOf P0 p)) (rowOf P0 p)) (rowOf P0 p) := by
    rw [dense_row _ P0 P10 P11 Wl bl 2 h10 h11 p, r1]
  have r3 : rowOf (dense (dense (dense (dense P0 P0 P2 P3) P0 P6 P7) P0 P10 P11) P0 P14 P15) p
      = layer Wl bl 3 (layer Wl bl 2 (layer Wl bl 1 (layer Wl bl 0 (rowOf P0 p) (rowOf P0 p)) (rowOf P0 p)) (rowOf P0 p)) (rowOf P0 p) := by
    rw [dense_row _ P0 P14 P15 Wl bl 3 h14 h15 p, r2]
  rw [top_at, deep_at, second_exit_at, pay4_eq, pay9_eq, pay10_eq, pay11_eq,
    estim_row _ P4 P5 We be 0 h4 h5 p c, estim_row _ P8 P9 We be 1 h8 h9 p c, estim_row _ P12 P13 We be 2 h12 h13 p c,
    estim_row _ P16 P17 We be 3 h16 h17 p c, r0, r1, r2, r3, gates_row]
  rfl

end Cert.KernelIdeal.Body

end
-- ==== Proof.KBlocks.lean ====
/-
  From blocks to the array.  Grid point t stages rows 1024 t … 1024 t + 1023 of the input and every weight array
  whole, runs the body, and writes the block back to rows 1024 t … 1024 t + 1023 of the result.  Since the body's
  row p depends on row p of the block alone, what point t writes is block t of the specification's result array;
  the 128 blocks cover the 131072 rows, so after the run the result array is the specification's.
-/
import proofs.«109851_j56392920597063_1_alg».proof.Proof.KValue
import proofs.«109851_j56392920597063_1_alg».proof.Proof.KBody

set_option maxRecDepth 16384

noncomputable section

namespace Cert.KernelIdeal.Blocks

open Cert.KernelIdeal Cert.KernelIdeal.Gen Cert.RowSpec Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The result array the specification gives from the argument arrays as launched. -/
def target (c : Dev nD) : S131072x1.Idx → Elt Ideal .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps, decided over the 128 grid points: the input's and the result's blocks sit at block row
    t, and every weight array is staged at block index zero. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-! ## The blocks the body reads -/

/-- Row p of the input's block at point t is row 1024 t + p of the input. -/
theorem x_row (c : Dev nD) (t : Fin cfg0.N) (p : Fin 1024) :
    Body.rowOf (View.ld (iblk m c 0 t) r0_0) p
      = fun k => m ((c : Thread nD τ).loc main_arg0) (ix2 (⟨t.val * 1024 + p.val, by have ht : t.val < 128 := t.isLt; have hp := p.isLt; show t.val * 1024 + p.val < 131072; omega⟩ : Fin 131072) k) := by
  obtain ⟨e0, e1, -⟩ := idx_facts t
  rw [View.ld_unit_zero (S := S1024x128) zeros2]
  funext k
  show V m c main_arg0 (((cfg0.win 0).blk t).view.emb (ix2 p k)) = _
  refine congrArg (m ((c : Thread nD τ).loc main_arg0)) (funext fun a => Fin.ext ?_)
  match a with
  | ⟨0, _⟩ => show win0_0.index t (0 : Fin 2) * 1024 + 1 * p.val = t.val * 1024 + p.val; omega
  | ⟨1, _⟩ => show win0_0.index t (1 : Fin 2) * 128 + 1 * k.val = k.val; omega

/-- The router's weights are staged whole. -/
theorem wr_whole (c : Dev nD) (t : Fin cfg0.N) :
    View.ld (iblk m c 1 t) r0_1 = m ((c : Thread nD τ).loc main_arg1) := by
  obtain ⟨-, -, -, -, e0, e1, -⟩ := idx_facts t
  rw [View.ld_unit_zero (S := S128x4) zeros2]
  funext y
  show V m c main_arg1 (((cfg0.win 1).blk t).view.emb y) = _
  refine congrArg (m ((c : Thread nD τ).loc main_arg1)) (funext fun a => Fin.ext ?_)
  match a with
  | ⟨0, _⟩ => show win0_1.index t (0 : Fin 2) * 128 + 1 * (y 0).val = (y 0).val; omega
  | ⟨1, _⟩ => show win0_1.index t (1 : Fin 2) * 4 + 1 * (y 1).val = (y 1).val; omega

/-- The piece of the layers' weights loaded at depth l is slice l of the array. -/
theorem wl_piece (c : Dev nD) (t : Fin cfg0.N) (l : Fin 4) (inb : ∀ a, (![l.val, 0, 0] : Fin 3 → Nat) a + S1x256x128.size a ≤ S4x256x128.size a)
    (k : Fin 256) (j : Fin 128) :
    View.ld (iblk m c 2 t) (Rect.unit (s := S4x256x128) ![l.val, 0, 0] S1x256x128.size inb) (ix3 (0 : Fin 1) k j)
      = m ((c : Thread nD τ).loc main_arg2) (ix3 l k j) := by
  obtain ⟨-, -, -, -, -, -, e0, e1, e2, -⟩ := idx_facts t
  show V m c main_arg2 (((cfg0.win 2).blk t).view.emb ((Rect.unit (s := S4x256x128) ![l.val, 0, 0] S1x256x128.size inb).emb (ix3 (0 : Fin 1) k j))) = _
  refine congrArg (m ((c : Thread nD τ).loc main_arg2)) (funext fun a => Fin.ext ?_)
  match a with
  | ⟨0, _⟩ => show win0_2.index t (0 : Fin 3) * 4 + 1 * (l.val + 1 * 0) = l.val; omega
  | ⟨1, _⟩ => show win0_2.index t (1 : Fin 3) * 256 + 1 * (0 + 1 * k.val) = k.val; omega
  | ⟨2, _⟩ => show win0_2.index t (2 : Fin 3) * 128 + 1 * (0 + 1 * j.val) = j.val; omega

/-- The piece of the layers' biases loaded at depth l is row l of the array. -/
theorem bl_piece (c : Dev nD) (t : Fin cfg0.N) (l : Fin 4) (inb : ∀ a, (![l.val, 0] : Fin 2 → Nat) a + S1x128.size a ≤ S4x128.size a)
    (j : Fin 128) :
    View.ld (iblk m c 3 t) (Rect.unit (s := S4x128) ![l.val, 0] S1x128.size inb) (ix2 (0 : Fin 1) j)
      = m ((c : Thread nD τ).loc main_arg3) (ix2 l j) := by
  obtain ⟨-, -, -, -, -, -, -, -, -, e0, e1, -⟩ := idx_facts t
  show V m c main_arg3 (((cfg0.win 3).blk t).view.emb ((Rect.unit (s := S4x128) ![l.val, 0] S1x128.size inb).emb (ix2 (0 : Fin 1) j))) = _
  refine congrArg (m ((c : Thread nD τ).loc main_arg3)) (funext fun a => Fin.ext ?_)
  match a with
  | ⟨0, _⟩ => show win0_3.index t (0 : Fin 2) * 4 + 1 * (l.val + 1 * 0) = l.val; omega
  | ⟨1, _⟩ => show win0_3.index t (1 : Fin 2) * 128 + 1 * (0 + 1 * j.val) = j.val; omega

/-- The piece of the estimators' weights loaded at depth l is column l of the array. -/
theorem we_piece (c : Dev nD) (t : Fin cfg0.N) (l : Fin 4) (inb : ∀ a, (![l.val, 0, 0] : Fin 3 → Nat) a + S1x128x1.size a ≤ S4x128x1.size a)
    (k : Fin 128) :
    View.ld (iblk m c 4 t) (Rect.unit (s := S4x128x1) ![l.val, 0, 0] S1x128x1.size inb) (ix3 (0 : Fin 1) k (0 : Fin 1))
      = m ((c : Thread nD τ).loc main_arg4) (ix3 l k (0 : Fin 1)) := by
  obtain ⟨-, -, -, -, -, -, -, -, -, -, -, e0, e1, e2, -⟩ := idx_facts t
  show V m c main_arg4 (((cfg0.win 4).blk t).view.emb ((Rect.unit (s := S4x128x1) ![l.val, 0, 0] S1x128x1.size inb).emb (ix3 (0 : Fin 1) k (0 : Fin 1)))) = _
  refine congrArg (m ((c : Thread nD τ).loc main_arg4)) (funext fun a => Fin.ext ?_)
  match a with
  | ⟨0, _⟩ => show win0_4.index t (0 : Fin 3) * 4 + 1 * (l.val + 1 * 0) = l.val; omega
  | ⟨1, _⟩ => show win0_4.index t (1 : Fin 3) * 128 + 1 * (0 + 1 * k.val) = k.val; omega
  | ⟨2, _⟩ => show win0_4.index t (2 : Fin 3) * 1 + 1 * (0 + 1 * 0) = 0; omega

/-- The piece of the estimators' biases loaded at depth l is entry l of the array. -/
theorem be_piece (c : Dev nD) (t : Fin cfg0.N) (l : Fin 4) (inb : ∀ a, (![l.val, 0] : Fin 2 → Nat) a + S1x1.size a ≤ S4x1.size a) :
    View.ld (iblk m c 5 t) (Rect.unit (s := S4x1) ![l.val, 0] S1x1.size inb) (ix2 (0 : Fin 1) (0 : Fin 1))
      = m ((c : Thread nD τ).loc main_arg5) (ix2 l (0 : Fin 1)) := by
  obtain ⟨-, -, -, -, -, -, -, -, -, -, -, -, -, -, e0, e1⟩ := idx_facts t
  show V m c main_arg5 (((cfg0.win 5).blk t).view.emb ((Rect.unit (s := S4x1) ![l.val, 0] S1x1.size inb).emb (ix2 (0 : Fin 1) (0 : Fin 1)))) = _
  refine congrArg (m ((c : Thread nD τ).loc main_arg5)) (funext fun a => Fin.ext ?_)
  match a with
  | ⟨0, _⟩ => show win0_5.index t (0 : Fin 2) * 4 + 1 * (l.val + 1 * 0) = l.val; omega
  | ⟨1, _⟩ => show win0_5.index t (1 : Fin 2) * 1 + 1 * (0 + 1 * 0) = 0; omega

/-! ## What a point writes back -/

/-- WHAT POINT t WRITES BACK is block t of the specification's result array. -/
theorem written_eq (c : Dev nD) (t : Fin cfg0.N) :
    (dats m 0 c).flushed 6 t = ((cfg0.win 6).blk t).view.read (Elt Ideal) (target m c) := by
  rw [ValueP.flushed6]
  unfold out0_6
  rw [View.canon_unit_zero zeros2]
  obtain ⟨-, -, e0, e1, -⟩ := idx_facts t
  funext j
  obtain ⟨p, cc, rfl⟩ : ∃ (p : Fin 1024) (cc : Fin 1), j = ix2 p cc := ⟨j 0, j 1, eq_ix2 j⟩
  refine Eq.trans (b := out (View.ld (iblk m c 1 t) r0_1) (m ((c : Thread nD τ).loc main_arg2)) (m ((c : Thread nD τ).loc main_arg3))
    (m ((c : Thread nD τ).loc main_arg4)) (m ((c : Thread nD τ).loc main_arg5)) (Body.rowOf (View.ld (iblk m c 0 t) r0_0) p)) ?_ ?_
  · exact Body.body_at (m ((c : Thread nD τ).loc main_arg2)) (m ((c : Thread nD τ).loc main_arg3))
      (m ((c : Thread nD τ).loc main_arg4)) (m ((c : Thread nD τ).loc main_arg5))
      (View.ld (iblk m c 0 t) r0_0) (View.ld (iblk m c 1 t) r0_1)
      (View.ld (iblk m c 2 t) r0_2) (View.ld (iblk m c 3 t) r0_3) (View.ld (iblk m c 4 t) r0_4) (View.ld (iblk m c 5 t) r0_5)
      (View.ld (iblk m c 2 t) r0_6) (View.ld (iblk m c 3 t) r0_7) (View.ld (iblk m c 4 t) r0_8) (View.ld (iblk m c 5 t) r0_9)
      (View.ld (iblk m c 2 t) r0_10) (View.ld (iblk m c 3 t) r0_11) (View.ld (iblk m c 4 t) r0_12) (View.ld (iblk m c 5 t) r0_13)
      (View.ld (iblk m c 2 t) r0_14) (View.ld (iblk m c 3 t) r0_15) (View.ld (iblk m c 4 t) r0_16) (View.ld (iblk m c 5 t) r0_17)
      (wl_piece m c t 0 _) (bl_piece m c t 0 _) (we_piece m c t 0 _) (be_piece m c t 0 _)
      (wl_piece m c t 1 _) (bl_piece m c t 1 _) (we_piece m c t 1 _) (be_piece m c t 1 _)
      (wl_piece m c t 2 _) (bl_piece m c t 2 _) (we_piece m c t 2 _) (be_piece m c t 2 _)
      (wl_piece m c t 3 _) (bl_piece m c t 3 _) (we_piece m c t 3 _) (be_piece m c t 3 _) p cc
  · rw [wr_whole, x_row]
    show _ = result _ _ _ _ _ _ (((cfg0.win 6).blk t).view.emb (ix2 p cc))
    unfold result
    refine congrArg (out _ _ _ _ _) (funext fun k => congrArg _ (funext fun a => Fin.ext ?_))
    match a with
    | ⟨0, _⟩ => show t.val * 1024 + p.val = win0_6.index t (0 : Fin 2) * 1024 + 1 * p.val; omega
    | ⟨1, _⟩ => rfl

/-! ## The cover and the array after the run -/

/-- An index of the result is in point t's block iff its row is among the block's 1024 rows. -/
theorem mem_blk (t : Fin cfg0.N) (i : S131072x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0).slice (win0_6.rect t)).set ↔ _
  rw [View.set_slice_whole, Rect.mem_set_unit]
  exact Iff.rfl

/-- Every index of the result lies in the block of the point its row divides to. -/
theorem covered (i : S131072x1.Idx) : ∃ t : Fin cfg0.N, (cfg0.win 6).flush t = true ∧ i ∈ ((cfg0.win 6).blk t).view.set := by
  have hi0 : (i 0).val < 131072 := (i 0).isLt
  have hi1 : (i 1).val < 1 := (i 1).isLt
  let t : Fin cfg0.N := ⟨(i 0).val / 1024, by show (i 0).val / 1024 < 128; omega⟩
  obtain ⟨-, -, e0, e1, -⟩ := idx_facts t
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    have ht : t.val = (i 0).val / 1024 := rfl
    omega
  | ⟨1, _⟩ =>
    show win0_6.index t (1 : Fin 2) * 1 ≤ (i 1).val ∧ (i 1).val < win0_6.index t (1 : Fin 2) * 1 + 1
    omega

/-- THE RESULT ARRAY after the run is the specification's. -/
theorem final (c : Dev nD) : (dats m 0 c).arrAt 6 cfg0.N = target m c :=
  (dats m 0 c).arrAt_eq_of_cover 6 (target m c) (fun t _ => written_eq m c t) (covered)

/-- The kernel's run with the result array named by the specification, the arguments unchanged. -/
theorem run : θ_run defs (onTc (τ := τ) (main (F := Ideal))) ⟨m, fun _ => 0, ρ⟩ fun r => ∀ c : Dev nD,
      r.2.mem ((c : Thread nD τ).loc main_v0) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (ValueP.run_blocks m ρ)

end Cert.KernelIdeal.Blocks

end
-- ==== Proof.RefRows.lean ====
/-
  The reference program read one row at a time.  Its stages are whole-array operations over all 131072 rows: the
  gates (the input times the router's weights, clipped at zero), four dense layers (the previous activation joined
  with the input, times a slice of the layers' weights, plus a slice of the biases laid along every row, clipped at
  zero), four estimators, and the fold of the estimates by the 0/1 masks of the gates.  Row r of each stage depends
  on row r of the input alone and is the specification's row function there.
-/
import proofs.«109851_j56392920597063_1_alg».proof.Proof.Gen.ReferenceIdeal.Read
import proofs.«109851_j56392920597063_1_alg».proof.Proof.RowSpec
import proofs.«109851_j56392920597063_1_alg».proof.Proof.LibRowOps
import Idealize.ShloMosaic.Lib.ValueLayout
import Idealize.ShloMosaic.Lib.KernelVsHost

noncomputable section

namespace Cert.ReferenceIdeal.Rows

open Cert.ReferenceIdeal Cert.ReferenceIdeal.Gen Cert.ReferenceIdeal.Read Cert.RowSpec Cert.Lib.RowOps Idealize.ShloMosaic Idealize.ShloMosaic.ValueIdx

/-- Row r of an array of activations. -/
def rrow (a : FVec Ideal S131072x128 .f32) (r : Fin 131072) : Row := fun k => a (ix2 r k)

/-- The scalar zero laid over a whole array is zero everywhere. -/
theorem zeros_at {s : Shape} (h : S_.BroadcastsInDim s ![]) (i : s.Idx) :
    broadcastInDim s ![] h (constant (F := Ideal) S_ .f32 0x00000000#32) i = 0 := by
  rw [broadcastInDim_apply ![] h _ i ix0 (fun a => a.elim0)]
  exact Ideal.ofBits_zero_f32

/-! ## The gates -/

theorem rgate_at (x0 : FVec Ideal S131072x128 .f32) (x1 : FVec Ideal S128x4 .f32) (r : Fin 131072) (d : Fin 4) :
    val_main_v1 (F := Ideal) x0 x1 (ix2 r d) = gate x1 (rrow x0 r) d := by
  show max (Host.dotGeneral dot_S131072x128_S128x4_S131072x4_1_0_0_1_n_n none x0 x1 (ix2 r d))
    (broadcastInDim S131072x4 ![] bcast_S_S131072x4 (constant (F := Ideal) S_ .f32 0x00000000#32) (ix2 r d)) = _
  rw [zeros_at]
  simp only [Host.dotGeneral]
  rw [Ideal.dotGeneral_apply, sum_rows dot_S131072x128_S128x4_S131072x4_1_0_0_1_n_n rfl rfl lhs_main_v0_0 lhs_main_v0_1 rhs_main_v0_0 rhs_main_v0_1 x0 x1 r d]
  rfl

/-! ## A dense layer -/

/-- Dense layer l of the reference on whole arrays. -/
def rdense (l : Nat) (a x0 : FVec Ideal S131072x128 .f32) (x2 : FVec Ideal S4x256x128 .f32) (x3 : FVec Ideal S4x128 .f32)
    (hs2 : S4x256x128.Slices ![l, 0, 0] S1x256x128) (hs3 : S4x128.Slices ![l, 0] S1x128) : FVec Ideal S131072x128 .f32 :=
  maximumf
    (addf (Host.dotGeneral dot_S131072x256_S256x128_S131072x128_1_0_0_1_n_n none
        (concatenate S131072x256 1 [⟨S131072x128, a⟩, ⟨S131072x128, x0⟩] concatenates_S131072x128_S131072x128_S131072x256_d1)
        (shapeCast S256x128 (extractStridedSlice S1x256x128 ![l, 0, 0] x2 hs2) shapeCasts_S1x256x128_S256x128))
      (broadcastInDim S131072x128 ![0, 1] bcast_S1x128_S131072x128_0_1
        (broadcastInDim S1x128 ![1] bcast_S128_S1x128_1 (shapeCast S128 (extractStridedSlice S1x128 ![l, 0] x3 hs3) shapeCasts_S1x128_S128))))
    (broadcastInDim S131072x128 ![] bcast_S_S131072x128 (constant S_ .f32 0x00000000#32))

/-- Row r of the reference's dense layer l is the specification's layer on row r of its operands. -/
theorem rdense_row (l : Fin 4) (a x0 : FVec Ideal S131072x128 .f32) (x2 : FVec Ideal S4x256x128 .f32) (x3 : FVec Ideal S4x128 .f32)
    (hs2 : S4x256x128.Slices ![l.val, 0, 0] S1x256x128) (hs3 : S4x128.Slices ![l.val, 0] S1x128) (r : Fin 131072) :
    rrow (rdense l.val a x0 x2 x3 hs2 hs3) r = layer x2 x3 l (rrow a r) (rrow x0 r) := by
  funext j
  show rdense l.val a x0 x2 x3 hs2 hs3 (ix2 r j) = _
  unfold rdense layer
  rw [maximumf_apply, addf_apply, zeros_at]
  have hb : broadcastInDim S131072x128 ![0, 1] bcast_S1x128_S131072x128_0_1
      (broadcastInDim S1x128 ![1] bcast_S128_S1x128_1 (shapeCast S128 (extractStridedSlice S1x128 ![l.val, 0] x3 hs3) shapeCasts_S1x128_S128)) (ix2 r j)
      = x3 (ix2 l j) := by
    rw [broadcastInDim_oneRow_apply,
      broadcastInDim_apply ![1] bcast_S128_S1x128_1 _ (ix2 (0 : Fin 1) j) (ix1 j) (fun a => by
        match a with
        | ⟨0, _⟩ => rfl),
      shapeCast_1a_a_apply]
    exact extractStridedSlice_apply ![l.val, 0] x3 hs3 (ix2 (0 : Fin 1) j) (ix2 l j) (fun a => by
      match a with
      | ⟨0, _⟩ => show l.val = l.val + 0; omega
      | ⟨1, _⟩ => show j.val = 0 + j.val; omega)
  rw [hb]
  simp only [Host.dotGeneral]
  rw [Ideal.dotGeneral_apply, sum_rows dot_S131072x256_S256x128_S131072x128_1_0_0_1_n_n rfl rfl lhs_main_v5_0 lhs_main_v5_1 rhs_main_v5_0 rhs_main_v5_1 _ _ r j]
  refine congrArg (fun s => max (s + x3 (ix2 l j)) 0) (Finset.sum_congr rfl fun k _ => ?_)
  rw [concat_cols_at (c1 := 128) (c2 := 128) rfl a x0, shapeCast_1ab_ab_apply]
  refine congrArg₂ (· * ·) rfl ?_
  exact extractStridedSlice_apply ![l.val, 0, 0] x2 hs2 (ix3 (0 : Fin 1) k j) (ix3 l k j) (fun a => by
    match a with
    | ⟨0, _⟩ => show l.val = l.val + 0; omega
    | ⟨1, _⟩ => show k.val = 0 + k.val; omega
    | ⟨2, _⟩ => show j.val = 0 + j.val; omega)

/-! ## An estimator -/

/-- Estimator l of the reference on a whole array of activations. -/
def restim (l : Nat) (a : FVec Ideal S131072x128 .f32) (x4 : FVec Ideal S4x128x1 .f32) (x5 : FVec Ideal S4x1 .f32)
    (hs4 : S4x128x1.Slices ![l, 0, 0] S1x128x1) (hs5 : S4x1.Slices ![l, 0] S1x1) : FVec Ideal S131072x1 .f32 :=
  addf (Host.dotGeneral dot_S131072x128_S128x1_S131072x1_1_0_0_1_n_n none a
      (shapeCast S128x1 (extractStridedSlice S1x128x1 ![l, 0, 0] x4 hs4) shapeCasts_S1x128x1_S128x1))
    (broadcastInDim S131072x1 ![0, 1] bcast_S1x1_S131072x1_0_1
      (broadcastInDim S1x1 ![1] bcast_S1_S1x1_1 (shapeCast S1 (extractStridedSlice S1x1 ![l, 0] x5 hs5) shapeCasts_S1x1_S1)))

/-- Entry (r, c) of the reference's estimator l is the specification's estimate of row r. -/
theorem restim_at (l : Fin 4) (a : FVec Ideal S131072x128 .f32) (x4 : FVec Ideal S4x128x1 .f32) (x5 : FVec Ideal S4x1 .f32)
    (hs4 : S4x128x1.Slices ![l.val, 0, 0] S1x128x1) (hs5 : S4x1.Slices ![l.val, 0] S1x1) (r : Fin 131072) (c : Fin 1) :
    restim l.val a x4 x5 hs4 hs5 (ix2 r c) = pred x4 x5 l (rrow a r) := by
  have hc : c = 0 := Subsingleton.elim _ _
  subst hc
  unfold restim pred
  rw [addf_apply]
  have hb : broadcastInDim S131072x1 ![0, 1] bcast_S1x1_S131072x1_0_1
      (broadcastInDim S1x1 ![1] bcast_S1_S1x1_1 (shapeCast S1 (extractStridedSlice S1x1 ![l.val, 0] x5 hs5) shapeCasts_S1x1_S1)) (ix2 r (0 : Fin 1))
      = x5 (ix2 l (0 : Fin 1)) := by
    rw [broadcastInDim_oneRow_apply,
      broadcastInDim_apply ![1] bcast_S1_S1x1_1 _ (ix2 (0 : Fin 1) (0 : Fin 1)) (ix1 (0 : Fin 1)) (fun a => by
        match a with
        | ⟨0, _⟩ => rfl),
      shapeCast_1a_a_apply]
    exact extractStridedSlice_apply ![l.val, 0] x5 hs5 (ix2 (0 : Fin 1) (0 : Fin 1)) (ix2 l (0 : Fin 1)) (fun a => by
      match a with
      | ⟨0, _⟩ => show l.val = l.val + 0; omega
      | ⟨1, _⟩ => rfl)
  rw [hb]
  simp only [Host.dotGeneral]
  rw [Ideal.dotGeneral_apply, sum_rows dot_S131072x128_S128x1_S131072x1_1_0_0_1_n_n rfl rfl lhs_main_v14_0 lhs_main_v14_1 rhs_main_v14_0 rhs_main_v14_1 _ _ r 0]
  refine congrArg (· + x5 (ix2 l (0 : Fin 1))) (Finset.sum_congr rfl fun k _ => ?_)
  rw [shapeCast_1ab_ab_apply]
  refine congrArg₂ (· * ·) rfl ?_
  exact extractStridedSlice_apply ![l.val, 0, 0] x4 hs4 (ix3 (0 : Fin 1) k (0 : Fin 1)) (ix3 l k (0 : Fin 1)) (fun a => by
    match a with
    | ⟨0, _⟩ => show l.val = l.val + 0; omega
    | ⟨1, _⟩ => show k.val = 0 + k.val; omega
    | ⟨2, _⟩ => rfl)

/-! ## The masks -/

/-- A comparison bit converted unsigned is the 0/1 indicator. -/
theorem bit_at {s : Shape} (g z : FVec Ideal s .f32) (i : s.Idx) (hz : z i = 0) :
    (uitofp .f32 (cmpf .ogt g z) : FVec Ideal s .f32) i = ind (g i) := by
  show ((((Ideal.cmp .ogt (g i) (z i)).toNat : ℝ)) : EReal) = _
  rw [hz]
  rfl

/-- The mask "gate o is positive", laid back as a column. -/
def rexit (o : Nat) (g : FVec Ideal S131072x4 .f32) (hs : S131072x4.Slices ![0, o] S131072x1) : FVec Ideal S131072x1 .f32 :=
  broadcastInDim S131072x1 ![0] bcast_S131072_S131072x1_0
    (uitofp .f32 (cmpf .ogt (shapeCast S131072 (extractStridedSlice S131072x1 ![0, o] g hs) shapeCasts_S131072x1_S131072)
      (broadcastInDim S131072 ![] bcast_S_S131072 (constant S_ .f32 0x00000000#32))))

theorem rexit_at (o : Nat) (ho : o < 4) (g : FVec Ideal S131072x4 .f32) (hs : S131072x4.Slices ![0, o] S131072x1) (r : Fin 131072) (c : Fin 1) :
    rexit o g hs (ix2 r c) = ind (g (ix2 r ⟨o, ho⟩)) := by
  have hc : c.val = 0 := by omega
  unfold rexit
  rw [broadcastInDim_apply ![0] bcast_S131072_S131072x1_0 _ (ix2 r c) (ix1 r) (fun a => by
    match a with
    | ⟨0, _⟩ => rfl), bit_at _ _ _ (zeros_at _ _)]
  refine congrArg ind ?_
  rw [shapeCast_apply _ shapeCasts_S131072x1_S131072 (ix1 r) (ix2 r (0 : Fin 1)) (by
    rw [Shape.rowMajor_val_one, Shape.rowMajor_val_two]; show r.val * 1 + 0 = r.val; omega)]
  exact slice2_axis1_apply o g hs r (0 : Fin 1) ⟨o, ho⟩ (by show o = o + 0; omega)

/-- The mask "some gate from column o on (m of them) is positive", laid back as a column. -/
def renter {m : Nat} (o : Nat) (g : FVec Ideal S131072x4 .f32) (hs : S131072x4.Slices ![0, o] ⟨2, ![131072, m]⟩)
    (hr : (⟨2, ![131072, m]⟩ : Shape).ReducesTo [1] S131072) : FVec Ideal S131072x1 .f32 :=
  broadcastInDim S131072x1 ![0] bcast_S131072_S131072x1_0
    (uitofp .f32 (cmpf .ogt (Host.reduceAdd (extractStridedSlice ⟨2, ![131072, m]⟩ ![0, o] g hs) (constant S_ .f32 0x00000000#32) hr h_S_)
      (broadcastInDim S131072 ![] bcast_S_S131072 (constant S_ .f32 0x00000000#32))))

theorem renter_at {m : Nat} (o : Nat) (g : FVec Ideal S131072x4 .f32) (hs : S131072x4.Slices ![0, o] ⟨2, ![131072, m]⟩)
    (hr : (⟨2, ![131072, m]⟩ : Shape).ReducesTo [1] S131072) (hred : (⟨2, ![131072, m]⟩ : Shape).Reduces [1] S131072)
    (r : Fin 131072) (c : Fin 1) :
    renter o g hs hr (ix2 r c)
      = ind (∑ k : Fin m, g (ix2 r ⟨o + k.val, Nat.lt_of_lt_of_le (Nat.add_lt_add_left k.isLt o) (hs.2 1)⟩)) := by
  unfold renter
  rw [broadcastInDim_apply ![0] bcast_S131072_S131072x1_0 _ (ix2 r c) (ix1 r) (fun a => by
    match a with
    | ⟨0, _⟩ => rfl), bit_at _ _ _ (zeros_at _ _)]
  refine congrArg ind ?_
  simp only [Host.reduceAdd, Ideal.hostReduceAdd_def]
  rw [Ideal.hostReduceAdd_single hr hred]
  show Ideal.ofBits .f32 0x00000000#32 + _ = _
  rw [Ideal.ofBits_zero_f32, zero_add]
  refine Finset.sum_congr rfl fun k _ => ?_
  have e : hred.lift (ix1 r) k = ix2 r k := funext fun a => Fin.ext (by
    match a with
    | ⟨0, _⟩ => rfl
    | ⟨1, _⟩ => rfl)
  rw [e]
  exact slice2_axis1_eq o g hs r k

/-! ## The printed stages are these expressions -/

theorem v11_eq (x0 : FVec Ideal S131072x128 .f32) (x2 : FVec Ideal S4x256x128 .f32) (x3 : FVec Ideal S4x128 .f32) :
    val_main_v11 (F := Ideal) x0 x2 x3 = rdense 0 x0 x0 x2 x3 slices_S4x256x128_S1x256x128_0_0_0 slices_S4x128_S1x128_0_0 := rfl
theorem v42_eq (x0 : FVec Ideal S131072x128 .f32) (x2 : FVec Ideal S4x256x128 .f32) (x3 : FVec Ideal S4x128 .f32) :
    val_main_v42 (F := Ideal) x0 x2 x3 = rdense 1 (val_main_v11 (F := Ideal) x0 x2 x3) x0 x2 x3 slices_S4x256x128_S1x256x128_1_0_0 slices_S4x128_S1x128_1_0 := rfl
theorem v73_eq (x0 : FVec Ideal S131072x128 .f32) (x2 : FVec Ideal S4x256x128 .f32) (x3 : FVec Ideal S4x128 .f32) :
    val_main_v73 (F := Ideal) x0 x2 x3 = rdense 2 (val_main_v42 (F := Ideal) x0 x2 x3) x0 x2 x3 slices_S4x256x128_S1x256x128_2_0_0 slices_S4x128_S1x128_2_0 := rfl
theorem v104_eq (x0 : FVec Ideal S131072x128 .f32) (x2 : FVec Ideal S4x256x128 .f32) (x3 : FVec Ideal S4x128 .f32) :
    val_main_v104 (F := Ideal) x0 x2 x3 = rdense 3 (val_main_v73 (F := Ideal) x0 x2 x3) x0 x2 x3 slices_S4x256x128_S1x256x128_3_0_0 slices_S4x128_S1x128_3_0 := rfl

/-- Rows of the four activations. -/
theorem act0_row (x0 : FVec Ideal S131072x128 .f32) (x2 : FVec Ideal S4x256x128 .f32) (x3 : FVec Ideal S4x128 .f32) (r : Fin 131072) :
    rrow (val_main_v11 (F := Ideal) x0 x2 x3) r = layer x2 x3 0 (rrow x0 r) (rrow x0 r) := by
  rw [v11_eq]; exact rdense_row 0 x0 x0 x2 x3 _ _ r
theorem act1_row (x0 : FVec Ideal S131072x128 .f32) (x2 : FVec Ideal S4x256x128 .f32) (x3 : FVec Ideal S4x128 .f32) (r : Fin 131072) :
    rrow (val_main_v42 (F := Ideal) x0 x2 x3) r = layer x2 x3 1 (layer x2 x3 0 (rrow x0 r) (rrow x0 r)) (rrow x0 r) := by
  rw [v42_eq]
  exact (rdense_row 1 _ x0 x2 x3 slices_S4x256x128_S1x256x128_1_0_0 slices_S4x128_S1x128_1_0 r).trans (by rw [act0_row])
theorem act2_row (x0 : FVec Ideal S131072x128 .f32) (x2 : FVec Ideal S4x256x128 .f32) (x3 : FVec Ideal S4x128 .f32) (r : Fin 131072) :
    rrow (val_main_v73 (F := Ideal) x0 x2 x3) r = layer x2 x3 2 (layer x2 x3 1 (layer x2 x3 0 (rrow x0 r) (rrow x0 r)) (rrow x0 r)) (rrow x0 r) := by
  rw [v73_eq]
  exact (rdense_row 2 _ x0 x2 x3 slices_S4x256x128_S1x256x128_2_0_0 slices_S4x128_S1x128_2_0 r).trans (by rw [act1_row])
theorem act3_row (x0 : FVec Ideal S131072x128 .f32) (x2 : FVec Ideal S4x256x128 .f32) (x3 : FVec Ideal S4x128 .f32) (r : Fin 131072) :
    rrow (val_main_v104 (F := Ideal) x0 x2 x3) r
      = layer x2 x3 3 (layer x2 x3 2 (layer x2 x3 1 (layer x2 x3 0 (rrow x0 r) (rrow x0 r)) (rrow x0 r)) (rrow x0 r)) (rrow x0 r) := by
  rw [v104_eq]
  exact (rdense_row 3 _ x0 x2 x3 slices_S4x256x128_S1x256x128_3_0_0 slices_S4x128_S1x128_3_0 r).trans (by rw [act2_row])

/-- THE REFERENCE'S RESULT at entry (r, c) is the specification's row function of row r of the input. -/
theorem ref_at (x0 : FVec Ideal S131072x128 .f32) (x1 : FVec Ideal S128x4 .f32) (x2 : FVec Ideal S4x256x128 .f32) (x3 : FVec Ideal S4x128 .f32)
    (x4 : FVec Ideal S4x128x1 .f32) (x5 : FVec Ideal S4x1 .f32) (r : Fin 131072) (c : Fin 1) :
    val_main_v118 (F := Ideal) x0 x1 x2 x3 x4 x5 (ix2 r c) = out x1 x2 x3 x4 x5 (rrow x0 r) := by
  show rexit 0 (val_main_v1 (F := Ideal) x0 x1) slices_S131072x4_S131072x1_0_0 (ix2 r c)
        * restim 0 (val_main_v11 (F := Ideal) x0 x2 x3) x4 x5 slices_S4x128x1_S1x128x1_0_0_0 slices_S4x1_S1x1_0_0 (ix2 r c)
      + renter 1 (val_main_v1 (F := Ideal) x0 x1) slices_S131072x4_S131072x3_0_1 reducesTo_S131072x3_S131072_d1 (ix2 r c)
        * (rexit 1 (val_main_v1 (F := Ideal) x0 x1) slices_S131072x4_S131072x1_0_1 (ix2 r c)
            * restim 1 (val_main_v42 (F := Ideal) x0 x2 x3) x4 x5 slices_S4x128x1_S1x128x1_1_0_0 slices_S4x1_S1x1_1_0 (ix2 r c)
          + renter 2 (val_main_v1 (F := Ideal) x0 x1) slices_S131072x4_S131072x2_0_2 reducesTo_S131072x2_S131072_d1 (ix2 r c)
            * (rexit 2 (val_main_v1 (F := Ideal) x0 x1) slices_S131072x4_S131072x1_0_2 (ix2 r c)
                * restim 2 (val_main_v73 (F := Ideal) x0 x2 x3) x4 x5 slices_S4x128x1_S1x128x1_2_0_0 slices_S4x1_S1x1_2_0 (ix2 r c)
              + renter 3 (val_main_v1 (F := Ideal) x0 x1) slices_S131072x4_S131072x1_0_3 reducesTo_S131072x1_S131072_d1 (ix2 r c)
                * restim 3 (val_main_v104 (F := Ideal) x0 x2 x3) x4 x5 slices_S4x128x1_S1x128x1_3_0_0 slices_S4x1_S1x1_3_0 (ix2 r c))) = _
  have p0 : restim 0 (val_main_v11 (F := Ideal) x0 x2 x3) x4 x5 slices_S4x128x1_S1x128x1_0_0_0 slices_S4x1_S1x1_0_0 (ix2 r c)
      = pred x4 x5 0 (rrow (val_main_v11 (F := Ideal) x0 x2 x3) r) := restim_at 0 _ x4 x5 _ _ r c
  have p1 : restim 1 (val_main_v42 (F := Ideal) x0 x2 x3) x4 x5 slices_S4x128x1_S1x128x1_1_0_0 slices_S4x1_S1x1_1_0 (ix2 r c)
      = pred x4 x5 1 (rrow (val_main_v42 (F := Ideal) x0 x2 x3) r) := restim_at 1 _ x4 x5 _ _ r c
  have p2 : restim 2 (val_main_v73 (F := Ideal) x0 x2 x3) x4 x5 slices_S4x128x1_S1x128x1_2_0_0 slices_S4x1_S1x1_2_0 (ix2 r c)
      = pred x4 x5 2 (rrow (val_main_v73 (F := Ideal) x0 x2 x3) r) := restim_at 2 _ x4 x5 _ _ r c
  have p3 : restim 3 (val_main_v104 (F := Ideal) x0 x2 x3) x4 x5 slices_S4x128x1_S1x128x1_3_0_0 slices_S4x1_S1x1_3_0 (ix2 r c)
      = pred x4 x5 3 (rrow (val_main_v104 (F := Ideal) x0 x2 x3) r) := restim_at 3 _ x4 x5 _ _ r c
  rw [rexit_at 0 (by decide), rexit_at 1 (by decide), rexit_at 2 (by decide),
    renter_at 1 _ _ _ (by decide), renter_at 2 _ _ _ (by decide), renter_at 3 _ _ _ (by decide),
    p0, p1, p2, p3, act0_row, act1_row, act2_row, act3_row]
  simp only [rgate_at]
  rfl

/-- THE REFERENCE'S RESULT ARRAY is the specification's. -/
theorem ref_result (x0 : FVec Ideal S131072x128 .f32) (x1 : FVec Ideal S128x4 .f32) (x2 : FVec Ideal S4x256x128 .f32) (x3 : FVec Ideal S4x128 .f32)
    (x4 : FVec Ideal S4x128x1 .f32) (x5 : FVec Ideal S4x1 .f32) :
    val_main_v118 (F := Ideal) x0 x1 x2 x3 x4 x5 = result x0 x1 x2 x3 x4 x5 := by
  funext i
  obtain ⟨r, c, rfl⟩ : ∃ (r : Fin 131072) (c : Fin 1), i = ix2 r c := ⟨i 0, i 1, eq_ix2 i⟩
  rw [ref_at]
  rfl

end Cert.ReferenceIdeal.Rows

end
-- ==== Proof.lean ====
/-
  The certificate of the routed four-layer estimator: a kernel that streams 1024-row blocks of the input through
  four dense layers and four estimators and folds the estimates by the router's gates, against the same computation
  written over whole arrays.  At the exact reading of the numbers both programs apply, row by row, one function of
  the row and the weights (Proof/RowSpec.lean): the kernel block by block (Proof/KBody.lean for a block's rows,
  Proof/KBlocks.lean for the 128 blocks covering the result), the reference over all rows at once
  (Proof/RefRows.lean).  No law of arithmetic beyond re-indexing a sum is used, so the finiteness of the inputs is
  never needed.  The three programs' runs and frames are the generated ones; the idealization rewrote nothing, so
  there is nothing to preserve.
-/
import proofs.«109851_j56392920597063_1_alg».proof.Defs
import proofs.«109851_j56392920597063_1_alg».proof.Proof.Gen.Kernel
import proofs.«109851_j56392920597063_1_alg».proof.Proof.Gen.Kernel.Skeleton
import proofs.«109851_j56392920597063_1_alg».proof.Proof.Gen.Kernel.Launch
import proofs.«109851_j56392920597063_1_alg».proof.Proof.Gen.Kernel.Points
import proofs.«109851_j56392920597063_1_alg».proof.Proof.Gen.Kernel.Frame
import proofs.«109851_j56392920597063_1_alg».proof.Proof.Gen.KernelIdeal
import proofs.«109851_j56392920597063_1_alg».proof.Proof.Gen.KernelIdeal.Skeleton
import proofs.«109851_j56392920597063_1_alg».proof.Proof.Gen.KernelIdeal.Launch
import proofs.«109851_j56392920597063_1_alg».proof.Proof.Gen.KernelIdeal.Points
import proofs.«109851_j56392920597063_1_alg».proof.Proof.Gen.KernelIdeal.Frame
import proofs.«109851_j56392920597063_1_alg».proof.Proof.Gen.ReferenceIdeal
import proofs.«109851_j56392920597063_1_alg».proof.Proof.Gen.Pre_finite_inputs
import proofs.«109851_j56392920597063_1_alg».proof.Proof.Gen.ReferenceIdeal.Run
import proofs.«109851_j56392920597063_1_alg».proof.Proof.Gen.ReferenceIdeal.Read
import proofs.«109851_j56392920597063_1_alg».proof.Proof.KBlocks
import proofs.«109851_j56392920597063_1_alg».proof.Proof.RefRows
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments alone: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's result array of the arguments they agree on. -/
theorem algebraic : Cert.algebraic_KernelIdeal_ReferenceIdeal := by
  intro m ρ m' ρ' _ hagree
  refine ⟨fun c => Cert.KernelIdeal.Blocks.target m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v118_eq, Cert.ReferenceIdeal.Rows.ref_result, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
